-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x80 : Shape := ⟨2, ![2097152, 80]⟩
abbrev S2097152 : Shape := ⟨1, ![2097152]⟩
abbrev S_ : Shape := ⟨0, ![]⟩

class Facts : Prop where
  bcast_S_S2097152x80 : S_.BroadcastsInDim S2097152x80 (![] : Fin 0 → Fin S2097152x80.rank)
  reducesTo_S2097152x80_S_d0_1 : S2097152x80.ReducesTo [0, 1] S_
  h_S_ : 0 < S_.numel
  bcast_S_S2097152 : S_.BroadcastsInDim S2097152 (![] : Fin 0 → Fin S2097152.rank)
  reducesTo_S2097152_S_d0 : S2097152.ReducesTo [0] S_

variable [Facts]

def fn {F : FTy → Type} [FloatOps F] (main_arg0 : FVec F S2097152x80 .f32) (main_arg1 : IVec S2097152 32) : IVec S_ 1 :=
  let main_v0 : FVec F S2097152x80 .f32 := Host.absf main_arg0
  let main_cst : FVec F S_ .f32 := constant S_ .f32 0x7F800000#32
  let main_v1 : FVec F S2097152x80 .f32 := broadcastInDim S2097152x80 ![] bcast_S_S2097152x80 main_cst
  let main_v2 : IVec S2097152x80 1 := cmpf .olt main_v0 main_v1
  let main_c : IVec S_ 1 := constantI S_ 1 1#1
  let main_v3 : IVec S_ 1 := (fun x v => Host.reduce IntOp.andi x v reducesTo_S2097152x80_S_d0_1 h_S_) main_v2 main_c
  let main_c_0 : IVec S_ 32 := constantI S_ 32 4294967295#32
  let main_v4 : IVec S2097152 32 := broadcastInDim S2097152 ![] bcast_S_S2097152 main_c_0
  let main_v5 : IVec S2097152 1 := cmpi .sge main_arg1 main_v4
  let main_c_1 : IVec S_ 32 := constantI S_ 32 80#32
  let main_v6 : IVec S2097152 32 := broadcastInDim S2097152 ![] bcast_S_S2097152 main_c_1
  let main_v7 : IVec S2097152 1 := cmpi .slt main_arg1 main_v6
  let main_v8 : IVec S2097152 1 := andi main_v5 main_v7
  let main_c_2 : IVec S_ 1 := constantI S_ 1 1#1
  let main_v9 : IVec S_ 1 := (fun x v => Host.reduce IntOp.andi x v reducesTo_S2097152_S_d0 h_S_) main_v8 main_c_2
  let main_v10 : IVec S_ 1 := andi main_v3 main_v9
  main_v10
-- ==== Kernel.lean ====
abbrev S2097152x80 : Shape := ⟨2, ![2097152, 80]⟩
abbrev S2097152 : Shape := ⟨1, ![2097152]⟩
abbrev S2097152x1 : Shape := ⟨2, ![2097152, 1]⟩
abbrev S1x1 : Shape := ⟨2, ![1, 1]⟩
abbrev S8192x80 : Shape := ⟨2, ![8192, 80]⟩
abbrev S8192x1 : Shape := ⟨2, ![8192, 1]⟩
abbrev S8192 : Shape := ⟨1, ![8192]⟩
abbrev S1 : Shape := ⟨1, ![1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S2097152x80, .f32⟩
  | .hbm, ⟨1, _⟩ => ⟨S2097152, .i32⟩
  | .hbm, ⟨2, _⟩ => ⟨S2097152x1, .i32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S8192x80, .f32⟩
  | .local _ .vmem, ⟨1, _⟩ => ⟨S8192x80, .f32⟩
  | .local _ .vmem, ⟨2, _⟩ => ⟨S8192x1, .i32⟩
  | .local _ .vmem, ⟨3, _⟩ => ⟨S8192x1, .i32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S2097152x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v36 : BitVec 1 := Scalar.cmpi .eq arg0 c255_i32
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S2097152_S2097152x1 : S2097152.ShapeCasts S2097152x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x80_S8192x80_0_0 : ∀ a, (![0, 0] : Fin 2 → Nat) a + S8192x80.size a ≤ S8192x80.size a
  h_S8192x80 : 0 < S8192x80.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S8192x80_d1_w32 : S8192x80.Iotas .tc 32 [1]
  broadcasts_S8192x1_S8192x80 : S8192x1.Broadcasts S8192x80
  reduces_S8192x80_S8192 : S8192x80.Reduces [1] S8192
  shapeCasts_S8192_S8192x1 : S8192.ShapeCasts S8192x1
  reduces_S8192x1_S1 : S8192x1.Reduces [0] S1
  shapeCasts_S1_S1x1 : S1.ShapeCasts S1x1
  natLt_1_32 : 1 < 32
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x80.size a ≤ S2097152x80.size a
  hwx0_0 : ∀ i : grid0.Coords, EltTy.bits .f32 = 32 ∨ (Rect.block (s := S2097152x80) S8192x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S2097152x1.size a
  hwx0_1 : ∀ i : grid0.Coords, EltTy.bits .i32 = 32 ∨ (Rect.block (s := S2097152x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S8192x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2097152x80 : Shape := ⟨2, ![2097152, 80]⟩
abbrev S2097152 : Shape := ⟨1, ![2097152]⟩
abbrev S_ : Shape := ⟨0, ![]⟩
abbrev S2097152x1 : Shape := ⟨2, ![2097152, 1]⟩
abbrev S2097152x1x1 : Shape := ⟨3, ![2097152, 1, 1]⟩
abbrev S1 : Shape := ⟨1, ![1]⟩
abbrev S1x1x1 : Shape := ⟨3, ![1, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S2097152x80, .f32⟩
  | .hbm, ⟨1, _⟩ => ⟨S2097152, .i32⟩
  | .hbm, ⟨2, _⟩ => ⟨S_, .i32⟩
  | .hbm, ⟨3, _⟩ => ⟨S2097152, .i32⟩
  | .hbm, ⟨4, _⟩ => ⟨S2097152, .i1⟩
  | .hbm, ⟨5, _⟩ => ⟨S_, .i32⟩
  | .hbm, ⟨6, _⟩ => ⟨S_, .i32⟩
  | .hbm, ⟨7, _⟩ => ⟨S2097152, .i32⟩
  | .hbm, ⟨8, _⟩ => ⟨S2097152, .i32⟩
  | .hbm, ⟨9, _⟩ => ⟨S2097152x1, .i32⟩
  | .hbm, ⟨10, _⟩ => ⟨S_, .i32⟩
  | .hbm, ⟨11, _⟩ => ⟨S2097152x1, .i32⟩
  | .hbm, ⟨12, _⟩ => ⟨S2097152x1, .i1⟩
  | .hbm, ⟨13, _⟩ => ⟨S_, .i32⟩
  | .hbm, ⟨14, _⟩ => ⟨S2097152x1, .i32⟩
  | .hbm, ⟨15, _⟩ => ⟨S2097152x1, .i32⟩
  | .hbm, ⟨16, _⟩ => ⟨S2097152x1, .i32⟩
  | .hbm, ⟨17, _⟩ => ⟨S2097152x1x1, .i32⟩
  | .hbm, ⟨18, _⟩ => ⟨S1, .i32⟩
  | .hbm, ⟨19, _⟩ => ⟨S_, .i32⟩
  | .hbm, ⟨20, _⟩ => ⟨S2097152x1x1, .i32⟩
  | .hbm, ⟨21, _⟩ => ⟨S2097152x1x1, .i1⟩
  | .hbm, ⟨22, _⟩ => ⟨S1x1x1, .i32⟩
  | .hbm, ⟨23, _⟩ => ⟨S2097152x1x1, .i32⟩
  | .hbm, ⟨24, _⟩ => ⟨S2097152x1x1, .i1⟩
  | .hbm, ⟨25, _⟩ => ⟨S2097152x1x1, .i1⟩
  | .hbm, ⟨26, _⟩ => ⟨S_, .i1⟩
  | .hbm, ⟨27, _⟩ => ⟨S2097152x1, .i1⟩
  | .hbm, ⟨28, _⟩ => ⟨S2097152x1, .f32⟩
  | .hbm, ⟨29, _⟩ => ⟨S_, .f32⟩
  | .hbm, ⟨30, _⟩ => ⟨S2097152x1, .f32⟩
  | .hbm, ⟨31, _⟩ => ⟨S2097152x1, .f32⟩
  | .hbm, ⟨32, _⟩ => ⟨S2097152, .f32⟩
  | .hbm, ⟨33, _⟩ => ⟨S_, .f32⟩
  | .hbm, ⟨34, _⟩ => ⟨S2097152, .f32⟩
  | .hbm, ⟨35, _⟩ => ⟨S2097152, .f32⟩
  | .hbm, ⟨36, _⟩ => ⟨S2097152, .f32⟩
  | .hbm, ⟨37, _⟩ => ⟨S_, .f32⟩
  | .hbm, ⟨38, _⟩ => ⟨S_, .f32⟩
  | .hbm, ⟨39, _⟩ => ⟨S2097152, .f32⟩
  | .hbm, ⟨40, _⟩ => ⟨S2097152, .f32⟩
  | .hbm, ⟨41, _⟩ => ⟨S2097152, .i32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S2097152x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_1 : Ref sig .tc := ⟨.hbm, 37, rfl⟩
abbrev main_call2_v0 : Ref sig .tc := ⟨.hbm, 38, rfl⟩
abbrev main_call2_v1 : Ref sig .tc := ⟨.hbm, 39, rfl⟩
abbrev main_v9 : Ref sig .tc := ⟨.hbm, 40, rfl⟩
abbrev main_v10 : Ref sig .tc := ⟨.hbm, 41, rfl⟩
abbrev main_c_2 : Ref sig .tc := ⟨.hbm, 42, rfl⟩
abbrev main_v11 : Ref sig .tc := ⟨.hbm, 43, rfl⟩
abbrev main_v12 : Ref sig .tc := ⟨.hbm, 44, rfl⟩
abbrev main_cst_3 : Ref sig .tc := ⟨.hbm, 45, rfl⟩
abbrev main_v13 : Ref sig .tc := ⟨.hbm, 46, rfl⟩
abbrev main_v14 : Ref sig .tc := ⟨.hbm, 47, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  shapeCasts_S2097152x1_S2097152x1x1 : S2097152x1.ShapeCasts S2097152x1x1
  bcast_S_S2097152x1x1 : S_.BroadcastsInDim S2097152x1x1 (![] : Fin 0 → Fin S2097152x1x1.rank)
  bcast_S1_S1x1x1_2 : S1.BroadcastsInDim S1x1x1 (![2] : Fin 1 → Fin S1x1x1.rank)
  bcast_S1x1x1_S2097152x1x1_0_1_2 : S1x1x1.BroadcastsInDim S2097152x1x1 (![0, 1, 2] : Fin 3 → Fin S2097152x1x1.rank)
  reducesTo_S2097152x1x1_S2097152x1_d2 : S2097152x1x1.ReducesTo [2] S2097152x1
  h_S_ : 0 < S_.numel
  shapeCasts_S2097152x1_S2097152 : S2097152x1.ShapeCasts S2097152
  natLt_1_32 : 1 < 32
  reducesTo_S2097152_S_d0 : S2097152.ReducesTo [0] S_
  gather_S2097152x80_S2097152x1x1_S2097152x1_n_1_0_0_1_2_11_wf : GatherDims.WF S2097152x80 S2097152x1x1 S2097152x1 [] [1] [0] [1] [0] 2 ![1, 1]

variable [Facts₀]

def gather_S2097152x80_S2097152x1x1_S2097152x1_n_1_0_0_1_2_11 : GatherDims S2097152x80 S2097152x1x1 S2097152x1 where
  offsetDims := []
  collapsedSliceDims := [1]
  operandBatchingDims := [0]
  startIndicesBatchingDims := [0]
  startIndexMap := [1]
  indexVectorDim := 2
  sliceSizes := ![1, 1]
  wf := gather_S2097152x80_S2097152x1x1_S2097152x1_n_1_0_0_1_2_11_wf

class Facts : Prop extends Facts₀ where

variable [Facts]
-- ==== Proof.LibAfter.lean ====
/-
  The contents of a buffer after a line of host operations, read one operation at a time.

  Every buffer of a printed program is written by one operation. So what the line leaves in the buffer operation k
  writes is what operation k left there, and that is its function applied to what the WHOLE line leaves in the buffers
  it reads, since no operation from k on writes those. The bookkeeping is a list ys of the references the operations
  write, in order: "x is not written from position k on" is "x is not among ys from position k on", a decidable
  question about a list of references.
-/
import Idealize.ShloMosaic.Lib.StableHlo.Run

noncomputable section

namespace Cert.LibAfter

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer no operation from position k on writes holds what the first k operations left. -/
theorem after_take (ops : List (HloOp τ sig Val)) (k : Nat) (V : Valuation τ sig Val) (b : DevRef τ sig)
    (h : ∀ o ∈ ops.drop k, b ∉ o.writes) : after ops V b = after (ops.take k) V b := by
  conv_lhs => rw [← List.take_append_drop k ops]
  rw [after_append, after_of_forall_not_mem _ _ h]

/-- A buffer no operation after position k writes holds what operation k left, run on what the first k operations left. -/
theorem after_at (ops : List (HloOp τ sig Val)) (k : Nat) (hk : k < ops.length) (V : Valuation τ sig Val)
    (b : DevRef τ sig) (h : ∀ o ∈ ops.drop (k + 1), b ∉ o.writes) :
    after ops V b = (ops[k]).result (after (ops.take k) V) b := by
  conv_lhs => rw [← List.take_append_drop k ops, List.drop_eq_getElem_cons hk]
  rw [after_append, after_cons, after_of_forall_not_mem _ _ h]

/-- The line writes, operation by operation, exactly the references ys, one each. -/
def Writes (ops : List (HloOp τ sig Val)) (ys : List (Ref sig .tc)) : Prop :=
  ops.map (fun o => o.writes) = ys.map fun y => ({Proc.devRef .tc y} : Finset (DevRef τ sig))

/-- A reference that is not among ys from position k on is written by no operation from position k on. -/
theorem Writes.not_written {ops : List (HloOp τ sig Val)} {ys : List (Ref sig .tc)} (hW : Writes ops ys) (k : Nat)
    (x : Ref sig .tc) (hx : x ∉ ys.drop k) : ∀ o ∈ ops.drop k, (Proc.devRef .tc x : DevRef τ sig) ∉ o.writes := by
  intro o ho hmem
  have h1 : o.writes ∈ (ops.drop k).map (fun o => o.writes) := List.mem_map_of_mem ho
  rw [List.map_drop, hW, ← List.map_drop] at h1
  obtain ⟨y', hy', he⟩ := List.mem_map.mp h1
  rw [← he, Finset.mem_singleton] at hmem
  have hxy : x = y' := Proc.devRef_injective _ hmem
  exact hx (hxy ▸ hy')

variable {ops : List (HloOp τ sig Val)} {ys : List (Ref sig .tc)}

/-- What the line leaves in the buffer operation k writes: operation k's result on what the first k operations left. -/
theorem Writes.at (hW : Writes ops ys) (V : Valuation τ sig Val) (k : Nat) {op : HloOp τ sig Val} {y : Ref sig .tc}
    (hop : ops[k]? = some op) (hy : y ∉ ys.drop (k + 1)) :
    after ops V (Proc.devRef .tc y) = op.result (after (ops.take k) V) (Proc.devRef .tc y) := by
  obtain ⟨hk, he⟩ := List.getElem?_eq_some_iff.mp hop
  rw [after_at ops k hk V _ (hW.not_written (k + 1) y hy), he]

/-- A buffer not written from position k on: what the first k operations left there is what the whole line leaves. -/
theorem Writes.back (hW : Writes ops ys) (V : Valuation τ sig Val) (k : Nat) (x : Ref sig .tc) (hx : x ∉ ys.drop k) :
    after (ops.take k) V (Proc.devRef .tc x) = after ops V (Proc.devRef .tc x) :=
  (after_take ops k V _ (hW.not_written k x hx)).symm

/-- A buffer the line never writes keeps its contents. -/
theorem Writes.kept (hW : Writes ops ys) (V : Valuation τ sig Val) (x : Ref sig .tc) (hx : x ∉ ys) :
    after ops V (Proc.devRef .tc x) = V (Proc.devRef .tc x) :=
  after_of_forall_not_mem ops V (hW.not_written 0 x hx)

/-! ## One operation: its result buffer from its operands' buffers, all after the whole line -/

theorem Writes.nullary (hW : Writes ops ys) (V : Valuation τ sig Val) (k : Nat) {y : Ref sig .tc} {v : y.ty.Contents Val} {hy}
    (hop : ops[k]? = some (nullary y v hy)) (hy' : y ∉ ys.drop (k + 1)) :
    after ops V (Proc.devRef .tc y) = v := by
  rw [hW.at V k hop hy', nullary_result]

theorem Writes.unary (hW : Writes ops ys) (V : Valuation τ sig Val) (k : Nat) {x y : Ref sig .tc}
    {f : x.ty.Contents Val → y.ty.Contents Val} {hx hy}
    (hop : ops[k]? = some (unary x y f hx hy)) (hy' : y ∉ ys.drop (k + 1)) (hx' : x ∉ ys.drop k) :
    after ops V (Proc.devRef .tc y) = f (after ops V (Proc.devRef .tc x)) := by
  rw [hW.at V k hop hy', unary_result]
  exact congrArg f (hW.back V k x hx')

theorem Writes.binary (hW : Writes ops ys) (V : Valuation τ sig Val) (k : Nat) {a b y : Ref sig .tc}
    {f : a.ty.Contents Val → b.ty.Contents Val → y.ty.Contents Val} {ha hb hy}
    (hop : ops[k]? = some (binary a b y f ha hb hy)) (hy' : y ∉ ys.drop (k + 1)) (ha' : a ∉ ys.drop k)
    (hb' : b ∉ ys.drop k) :
    after ops V (Proc.devRef .tc y) = f (after ops V (Proc.devRef .tc a)) (after ops V (Proc.devRef .tc b)) := by
  rw [hW.at V k hop hy', binary_result]
  exact congrArg₂ f (hW.back V k a ha') (hW.back V k b hb')

theorem Writes.ternary (hW : Writes ops ys) (V : Valuation τ sig Val) (k : Nat) {c a b y : Ref sig .tc}
    {f : c.ty.Contents Val → a.ty.Contents Val → b.ty.Contents Val → y.ty.Contents Val} {hc ha hb hy}
    (hop : ops[k]? = some (ternary c a b y f hc ha hb hy)) (hy' : y ∉ ys.drop (k + 1)) (hc' : c ∉ ys.drop k)
    (ha' : a ∉ ys.drop k) (hb' : b ∉ ys.drop k) :
    after ops V (Proc.devRef .tc y)
      = f (after ops V (Proc.devRef .tc c)) (after ops V (Proc.devRef .tc a)) (after ops V (Proc.devRef .tc b)) := by
  rw [hW.at V k hop hy', ternary_result, hW.back V k c hc', hW.back V k a ha', hW.back V k b hb']

theorem Writes.reshape (hW : Writes ops ys) (V : Valuation τ sig Val) (k : Nat) {x y : Ref sig .tc}
    {he : x.ty.elt = y.ty.elt} {hn : x.ty.shape.ShapeCasts y.ty.shape} {hx hy}
    (hop : ops[k]? = some (reshape x y he hn hx hy)) (hy' : y ∉ ys.drop (k + 1)) (hx' : x ∉ ys.drop k) :
    after ops V (Proc.devRef .tc y) = fun i => he ▸ shapeCast y.ty.shape (after ops V (Proc.devRef .tc x)) hn i := by
  rw [hW.at V k hop hy', reshape_result, hW.back V k x hx']

/-! ## The same for an operation of a called function

  A called function's operation names its buffers through typed references and carries contents across the equation
  "the buffer's type is the value's type". When that equation is the reflexive one the transport is the identity, and
  the operation's function applies to the buffers' contents as they are. -/

theorem Writes.tunary (hW : Writes ops ys) (V : Valuation τ sig Val) (k : Nat) {x y : Ref sig .tc} {ox ux oy uy}
    {g : x.ty.Contents Val → y.ty.Contents Val}
    (hop : ops[k]? = some (TRef.unary (⟨x, rfl, ox, ux⟩ : TRef sig x.ty) (⟨y, rfl, oy, uy⟩ : TRef sig y.ty) g))
    (hy' : y ∉ ys.drop (k + 1)) (hx' : x ∉ ys.drop k) :
    after ops V (Proc.devRef .tc y) = g (after ops V (Proc.devRef .tc x)) := by
  have h := hW.unary V k hop hy' hx'
  simpa only [TRef.toBuf, TRef.ofBuf, cast_eq] using h

theorem Writes.tbinary (hW : Writes ops ys) (V : Valuation τ sig Val) (k : Nat) {a b y : Ref sig .tc} {oa ua ob ub oy uy}
    {g : a.ty.Contents Val → b.ty.Contents Val → y.ty.Contents Val}
    (hop : ops[k]? = some (TRef.binary (⟨a, rfl, oa, ua⟩ : TRef sig a.ty) (⟨b, rfl, ob, ub⟩ : TRef sig b.ty)
      (⟨y, rfl, oy, uy⟩ : TRef sig y.ty) g))
    (hy' : y ∉ ys.drop (k + 1)) (ha' : a ∉ ys.drop k) (hb' : b ∉ ys.drop k) :
    after ops V (Proc.devRef .tc y) = g (after ops V (Proc.devRef .tc a)) (after ops V (Proc.devRef .tc b)) := by
  have h := hW.binary V k hop hy' ha' hb'
  simpa only [TRef.toBuf, TRef.ofBuf, cast_eq] using h

theorem Writes.tternary (hW : Writes ops ys) (V : Valuation τ sig Val) (k : Nat) {c a b y : Ref sig .tc}
    {oc uc oa ua ob ub oy uy} {g : c.ty.Contents Val → a.ty.Contents Val → b.ty.Contents Val → y.ty.Contents Val}
    (hop : ops[k]? = some (TRef.ternary (⟨c, rfl, oc, uc⟩ : TRef sig c.ty) (⟨a, rfl, oa, ua⟩ : TRef sig a.ty)
      (⟨b, rfl, ob, ub⟩ : TRef sig b.ty) (⟨y, rfl, oy, uy⟩ : TRef sig y.ty) g))
    (hy' : y ∉ ys.drop (k + 1)) (hc' : c ∉ ys.drop k) (ha' : a ∉ ys.drop k) (hb' : b ∉ ys.drop k) :
    after ops V (Proc.devRef .tc y)
      = g (after ops V (Proc.devRef .tc c)) (after ops V (Proc.devRef .tc a)) (after ops V (Proc.devRef .tc b)) := by
  have h := hW.ternary V k hop hy' hc' ha' hb'
  simpa only [TRef.toBuf, TRef.ofBuf, cast_eq] using h

end Cert.LibAfter

end
-- ==== Proof.RefStages.lean ====
/-
  The reference's run, read one operation at a time: what its line of 46 host operations leaves in the result buffer is
  the last stage's value of the two argument arrays, and the argument buffers keep their contents.
-/
import proofs.«406647_j39058432590486_1_alg».proof.Proof.RefRead
import proofs.«406647_j39058432590486_1_alg».proof.Proof.LibAfter

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The references the 46 operations write, in the operations' order: each buffer but the two arguments, once. -/
def ys : List (Ref sig .tc) :=
  [main_c, main_v0, main_v1, main_c_0, main_call0_v0, main_call0_v1, main_v2, main_v3, main_call1_c, main_call1_v0,
   main_call1_v1, main_call1_c_0, main_call1_v2, main_call1_v3, main_call1_v4, main_call1_v5, main_call1_c_1,
   main_call1_c_2, main_call1_v6, main_call1_v7, main_call1_v8, main_call1_v9, main_call1_v10, main_call1_v11,
   main_call1_c_3, main_call1_v12, main_call1_v13, main_call1_cst, main_call1_v14, main_v4, main_v5, main_cst, main_v6,
   main_v7, main_v8, main_cst_1, main_call2_v0, main_call2_v1, main_v9, main_v10, main_c_2, main_v11, main_v12,
   main_cst_3, main_v13, main_v14]

/-- Operation k writes the k-th of those references and nothing else. -/
theorem hW : Cert.LibAfter.Writes (Cert.ReferenceIdeal.RunP.ops (F := F)) ys := rfl

/-! ## A called function's constant and reshape

  As for the other operations of a called function: at a reference whose type equation is the reflexive one, the
  transport of contents is the identity. -/

theorem tnullary {os : List (HloOp τ sig (Elt F))} {rs : List (Ref sig .tc)} (h : Cert.LibAfter.Writes os rs)
    (V : Valuation τ sig (Elt F)) (k : Nat) {y : Ref sig .tc} {oy uy} {v : y.ty.Contents (Elt F)}
    (hop : os[k]? = some (TRef.nullary (⟨y, rfl, oy, uy⟩ : TRef sig y.ty) v)) (hy' : y ∉ rs.drop (k + 1)) :
    after os V (Proc.devRef .tc y) = v := by
  have h' := h.nullary V k hop hy'
  simpa only [TRef.toBuf, cast_eq] using h'

theorem treshape {os : List (HloOp τ sig (Elt F))} {rs : List (Ref sig .tc)} (h : Cert.LibAfter.Writes os rs)
    (V : Valuation τ sig (Elt F)) (k : Nat) {x y : Ref sig .tc} {ox ux oy uy} {he : x.ty.elt = y.ty.elt}
    {hn : x.ty.shape.ShapeCasts y.ty.shape}
    (hop : os[k]? = some (TRef.reshape (⟨x, rfl, ox, ux⟩ : TRef sig x.ty) (⟨y, rfl, oy, uy⟩ : TRef sig y.ty) he hn))
    (hy' : y ∉ rs.drop (k + 1)) (hx' : x ∉ rs.drop k) :
    after os V (Proc.devRef .tc y) = fun i => he ▸ shapeCast y.ty.shape (after os V (Proc.devRef .tc x)) hn i :=
  h.reshape V k hop hy' hx'

/-! ## The arguments -/

section stages

variable (V : Valuation τ sig (Elt F))

theorem kept0 : after (RunP.ops (F := F)) V (Proc.devRef .tc main_arg0) = V (Proc.devRef .tc main_arg0) :=
  hW.kept V main_arg0 (by decide)

theorem kept1 : after (RunP.ops (F := F)) V (Proc.devRef .tc main_arg1) = V (Proc.devRef .tc main_arg1) :=
  hW.kept V main_arg1 (by decide)

/-! ## The stages, in the operations' order -/

theorem st_main_c : after (RunP.ops (F := F)) V (Proc.devRef .tc main_c) = ReadP.val_main_c (F := F) :=
  hW.nullary V 0 rfl (by decide)

theorem st_main_v0 : after (RunP.ops (F := F)) V (Proc.devRef .tc main_v0) = ReadP.val_main_v0 (F := F) := by
  rw [hW.unary V 1 rfl (by decide) (by decide), st_main_c]; rfl

theorem st_main_v1 : after (RunP.ops (F := F)) V (Proc.devRef .tc main_v1)
    = ReadP.val_main_v1 (F := F) (V (Proc.devRef .tc main_arg1)) := by
  rw [hW.binary V 2 rfl (by decide) (by decide) (by decide), kept1, st_main_v0]; rfl

theorem st_main_c_0 : after (RunP.ops (F := F)) V (Proc.devRef .tc main_c_0) = ReadP.val_main_c_0 (F := F) :=
  hW.nullary V 3 rfl (by decide)

theorem st_main_call0_v0 : after (RunP.ops (F := F)) V (Proc.devRef .tc main_call0_v0) = ReadP.val_main_call0_v0 (F := F) := by
  rw [hW.tunary V 4 rfl (by decide) (by decide), st_main_c_0]; rfl

theorem st_main_call0_v1 : after (RunP.ops (F := F)) V (Proc.devRef .tc main_call0_v1) = ReadP.val_main_call0_v1 (F := F) := by
  rw [hW.tunary V 5 rfl (by decide) (by decide), st_main_call0_v0]; rfl

theorem st_main_v2 : after (RunP.ops (F := F)) V (Proc.devRef .tc main_v2)
    = ReadP.val_main_v2 (F := F) (V (Proc.devRef .tc main_arg1)) := by
  rw [hW.tternary V 6 rfl (by decide) (by decide) (by decide) (by decide), st_main_v1, kept1, st_main_call0_v1]; rfl

theorem st_main_v3 : after (RunP.ops (F := F)) V (Proc.devRef .tc main_v3)
    = ReadP.val_main_v3 (F := F) (V (Proc.devRef .tc main_arg1)) := by
  rw [hW.unary V 7 rfl (by decide) (by decide), st_main_v2]; rfl

theorem st_main_call1_c : after (RunP.ops (F := F)) V (Proc.devRef .tc main_call1_c) = ReadP.val_main_call1_c (F := F) :=
  tnullary hW V 8 rfl (by decide)

theorem st_main_call1_v0 : after (RunP.ops (F := F)) V (Proc.devRef .tc main_call1_v0) = ReadP.val_main_call1_v0 (F := F) := by
  rw [hW.tunary V 9 rfl (by decide) (by decide), st_main_call1_c]; rfl

theorem st_main_call1_v1 : after (RunP.ops (F := F)) V (Proc.devRef .tc main_call1_v1)
    = ReadP.val_main_call1_v1 (F := F) (V (Proc.devRef .tc main_arg1)) := by
  rw [hW.tbinary V 10 rfl (by decide) (by decide) (by decide), st_main_v3, st_main_call1_v0]; rfl

theorem st_main_call1_c_0 : after (RunP.ops (F := F)) V (Proc.devRef .tc main_call1_c_0) = ReadP.val_main_call1_c_0 (F := F) :=
  tnullary hW V 11 rfl (by decide)

theorem st_main_call1_v2 : after (RunP.ops (F := F)) V (Proc.devRef .tc main_call1_v2) = ReadP.val_main_call1_v2 (F := F) := by
  rw [hW.tunary V 12 rfl (by decide) (by decide), st_main_call1_c_0]; rfl

theorem st_main_call1_v3 : after (RunP.ops (F := F)) V (Proc.devRef .tc main_call1_v3)
    = ReadP.val_main_call1_v3 (F := F) (V (Proc.devRef .tc main_arg1)) := by
  rw [hW.tbinary V 13 rfl (by decide) (by decide) (by decide), st_main_v3, st_main_call1_v2]; rfl

theorem st_main_call1_v4 : after (RunP.ops (F := F)) V (Proc.devRef .tc main_call1_v4)
    = ReadP.val_main_call1_v4 (F := F) (V (Proc.devRef .tc main_arg1)) := by
  rw [hW.tternary V 14 rfl (by decide) (by decide) (by decide) (by decide), st_main_call1_v1, st_main_call1_v3,
    st_main_v3]; rfl

theorem st_main_call1_v5 : after (RunP.ops (F := F)) V (Proc.devRef .tc main_call1_v5)
    = ReadP.val_main_call1_v5 (F := F) (V (Proc.devRef .tc main_arg1)) := by
  rw [treshape hW V 15 rfl (by decide) (by decide), st_main_call1_v4]; rfl

theorem st_main_call1_c_1 : after (RunP.ops (F := F)) V (Proc.devRef .tc main_call1_c_1) = ReadP.val_main_call1_c_1 (F := F) :=
  tnullary hW V 16 rfl (by decide)

theorem st_main_call1_c_2 : after (RunP.ops (F := F)) V (Proc.devRef .tc main_call1_c_2) = ReadP.val_main_call1_c_2 (F := F) :=
  tnullary hW V 17 rfl (by decide)

theorem st_main_call1_v6 : after (RunP.ops (F := F)) V (Proc.devRef .tc main_call1_v6) = ReadP.val_main_call1_v6 (F := F) := by
  rw [hW.tunary V 18 rfl (by decide) (by decide), st_main_call1_c_2]; rfl

theorem st_main_call1_v7 : after (RunP.ops (F := F)) V (Proc.devRef .tc main_call1_v7)
    = ReadP.val_main_call1_v7 (F := F) (V (Proc.devRef .tc main_arg1)) := by
  rw [hW.tbinary V 19 rfl (by decide) (by decide) (by decide), st_main_call1_v5, st_main_call1_v6]; rfl

theorem st_main_call1_v8 : after (RunP.ops (F := F)) V (Proc.devRef .tc main_call1_v8) = ReadP.val_main_call1_v8 (F := F) := by
  rw [hW.tunary V 20 rfl (by decide) (by decide), st_main_call1_c_1]; rfl

theorem st_main_call1_v9 : after (RunP.ops (F := F)) V (Proc.devRef .tc main_call1_v9) = ReadP.val_main_call1_v9 (F := F) := by
  rw [hW.tunary V 21 rfl (by decide) (by decide), st_main_call1_v8]; rfl

theorem st_main_call1_v10 : after (RunP.ops (F := F)) V (Proc.devRef .tc main_call1_v10)
    = ReadP.val_main_call1_v10 (F := F) (V (Proc.devRef .tc main_arg1)) := by
  rw [hW.tbinary V 22 rfl (by decide) (by decide) (by decide), st_main_call1_v5, st_main_call1_v9]; rfl

theorem st_main_call1_v11 : after (RunP.ops (F := F)) V (Proc.devRef .tc main_call1_v11)
    = ReadP.val_main_call1_v11 (F := F) (V (Proc.devRef .tc main_arg1)) := by
  rw [hW.tbinary V 23 rfl (by decide) (by decide) (by decide), st_main_call1_v7, st_main_call1_v10]; rfl

theorem st_main_call1_c_3 : after (RunP.ops (F := F)) V (Proc.devRef .tc main_call1_c_3) = ReadP.val_main_call1_c_3 (F := F) :=
  tnullary hW V 24 rfl (by decide)

theorem st_main_call1_v12 : after (RunP.ops (F := F)) V (Proc.devRef .tc main_call1_v12)
    = ReadP.val_main_call1_v12 (F := F) (V (Proc.devRef .tc main_arg1)) := by
  rw [hW.tbinary V 25 rfl (by decide) (by decide) (by decide), st_main_call1_v11, st_main_call1_c_3]; rfl

theorem st_main_call1_v13 : after (RunP.ops (F := F)) V (Proc.devRef .tc main_call1_v13)
    = ReadP.val_main_call1_v13 (F := F) (V (Proc.devRef .tc main_arg0)) (V (Proc.devRef .tc main_arg1)) := by
  rw [hW.tbinary V 26 rfl (by decide) (by decide) (by decide), kept0, st_main_call1_v5]; rfl

theorem st_main_call1_cst : after (RunP.ops (F := F)) V (Proc.devRef .tc main_call1_cst) = ReadP.val_main_call1_cst (F := F) :=
  tnullary hW V 27 rfl (by decide)

theorem st_main_call1_v14 : after (RunP.ops (F := F)) V (Proc.devRef .tc main_call1_v14) = ReadP.val_main_call1_v14 (F := F) := by
  rw [hW.tunary V 28 rfl (by decide) (by decide), st_main_call1_cst]; rfl

theorem st_main_v4 : after (RunP.ops (F := F)) V (Proc.devRef .tc main_v4)
    = ReadP.val_main_v4 (F := F) (V (Proc.devRef .tc main_arg0)) (V (Proc.devRef .tc main_arg1)) := by
  rw [hW.tternary V 29 rfl (by decide) (by decide) (by decide) (by decide), st_main_call1_v12, st_main_call1_v13,
    st_main_call1_v14]; rfl

theorem st_main_v5 : after (RunP.ops (F := F)) V (Proc.devRef .tc main_v5)
    = ReadP.val_main_v5 (F := F) (V (Proc.devRef .tc main_arg0)) (V (Proc.devRef .tc main_arg1)) := by
  rw [hW.reshape V 30 rfl (by decide) (by decide), st_main_v4]; rfl

theorem st_main_cst : after (RunP.ops (F := F)) V (Proc.devRef .tc main_cst) = ReadP.val_main_cst (F := F) :=
  hW.nullary V 31 rfl (by decide)

theorem st_main_v6 : after (RunP.ops (F := F)) V (Proc.devRef .tc main_v6) = ReadP.val_main_v6 (F := F) := by
  rw [hW.unary V 32 rfl (by decide) (by decide), st_main_cst]; rfl

theorem st_main_v7 : after (RunP.ops (F := F)) V (Proc.devRef .tc main_v7)
    = ReadP.val_main_v7 (F := F) (V (Proc.devRef .tc main_arg0)) (V (Proc.devRef .tc main_arg1)) := by
  rw [hW.binary V 33 rfl (by decide) (by decide) (by decide), st_main_v6, st_main_v5]; rfl

theorem st_main_v8 : after (RunP.ops (F := F)) V (Proc.devRef .tc main_v8)
    = ReadP.val_main_v8 (F := F) (V (Proc.devRef .tc main_arg0)) (V (Proc.devRef .tc main_arg1)) := by
  rw [hW.binary V 34 rfl (by decide) (by decide) (by decide), st_main_v7]; rfl

theorem st_main_cst_1 : after (RunP.ops (F := F)) V (Proc.devRef .tc main_cst_1) = ReadP.val_main_cst_1 (F := F) :=
  hW.nullary V 35 rfl (by decide)

theorem st_main_call2_v0 : after (RunP.ops (F := F)) V (Proc.devRef .tc main_call2_v0) = ReadP.val_main_call2_v0 (F := F) := by
  rw [hW.tunary V 36 rfl (by decide) (by decide), st_main_cst_1]; rfl

theorem st_main_call2_v1 : after (RunP.ops (F := F)) V (Proc.devRef .tc main_call2_v1) = ReadP.val_main_call2_v1 (F := F) := by
  rw [hW.tunary V 37 rfl (by decide) (by decide), st_main_call2_v0]; rfl

theorem st_main_v9 : after (RunP.ops (F := F)) V (Proc.devRef .tc main_v9)
    = ReadP.val_main_v9 (F := F) (V (Proc.devRef .tc main_arg0)) (V (Proc.devRef .tc main_arg1)) := by
  rw [hW.tternary V 38 rfl (by decide) (by decide) (by decide) (by decide), st_main_v1, st_main_v8, st_main_call2_v1]; rfl

theorem st_main_v10 : after (RunP.ops (F := F)) V (Proc.devRef .tc main_v10)
    = ReadP.val_main_v10 (F := F) (V (Proc.devRef .tc main_arg1)) := by
  rw [hW.unary V 39 rfl (by decide) (by decide), st_main_v1]; rfl

theorem st_main_c_2 : after (RunP.ops (F := F)) V (Proc.devRef .tc main_c_2) = ReadP.val_main_c_2 (F := F) :=
  hW.nullary V 40 rfl (by decide)

theorem st_main_v11 : after (RunP.ops (F := F)) V (Proc.devRef .tc main_v11)
    = ReadP.val_main_v11 (F := F) (V (Proc.devRef .tc main_arg1)) := by
  rw [hW.binary V 41 rfl (by decide) (by decide) (by decide), st_main_v10, st_main_c_2]; rfl

theorem st_main_v12 : after (RunP.ops (F := F)) V (Proc.devRef .tc main_v12)
    = ReadP.val_main_v12 (F := F) (V (Proc.devRef .tc main_arg1)) := by
  rw [hW.unary V 42 rfl (by decide) (by decide), st_main_v11]; rfl

theorem st_main_cst_3 : after (RunP.ops (F := F)) V (Proc.devRef .tc main_cst_3) = ReadP.val_main_cst_3 (F := F) :=
  hW.nullary V 43 rfl (by decide)

theorem st_main_v13 : after (RunP.ops (F := F)) V (Proc.devRef .tc main_v13)
    = ReadP.val_main_v13 (F := F) (V (Proc.devRef .tc main_arg0)) (V (Proc.devRef .tc main_arg1)) := by
  rw [hW.binary V 44 rfl (by decide) (by decide) (by decide), st_main_v9, st_main_cst_3]; rfl

theorem st_main_v14 : after (RunP.ops (F := F)) V (Proc.devRef .tc main_v14)
    = ReadP.val_main_v14 (F := F) (V (Proc.devRef .tc main_arg0)) (V (Proc.devRef .tc main_arg1)) := by
  rw [hW.binary V 45 rfl (by decide) (by decide) (by decide), st_main_v13, st_main_v12]; rfl

end stages

/-- The result buffer after the whole line: the last stage of the two arguments' contents. -/
theorem result_stage (V : Valuation τ sig (Elt F)) :
    after (Cert.ReferenceIdeal.RunP.ops (F := F)) V (Proc.devRef .tc main_v14)
      = Cert.ReferenceIdeal.ReadP.val_main_v14 (F := F) (V (Proc.devRef .tc main_arg0)) (V (Proc.devRef .tc main_arg1)) :=
  st_main_v14 V

/-- No operation writes an argument. -/
theorem arg0_kept (V : Valuation τ sig (Elt F)) :
    after (Cert.ReferenceIdeal.RunP.ops (F := F)) V (Proc.devRef .tc main_arg0) = V (Proc.devRef .tc main_arg0) :=
  kept0 V
theorem arg1_kept (V : Valuation τ sig (Elt F)) :
    after (Cert.ReferenceIdeal.RunP.ops (F := F)) V (Proc.devRef .tc main_arg1) = V (Proc.devRef .tc main_arg1) :=
  kept1 V

/-- Every weakly fair execution of the reference terminates with its result at the last stage of the arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
        = Cert.ReferenceIdeal.ReadP.val_main_v14 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v14).trans (result_stage _), (h c main_arg0).trans (arg0_kept _),
    (h c main_arg1).trans (arg1_kept _)⟩) (Cert.ReferenceIdeal.RunP.run_after m ρ)

end Cert.ReferenceIdeal.Stages

end
-- ==== Proof.Spec.lean ====
/-
  The loss both programs compute, as one function of the two argument arrays, and the two laws the comparison rests on.

  The arrays: logits x of 2097152 rows and 80 columns over the extended reals, and one 32-bit target word t per row.
  A row whose target is the word -1 is ignored. Any other row contributes the square of (1 - the logit its target picks),
  where "the logit its target picks" is written the way a one-hot selection computes it: the sum over the 80 columns of
  x r c where c's column number, as a word, equals the target, and 0 elsewhere. So a target that is a column number picks
  that column's logit, and a target that is no column number picks 0. The result is the sum of the contributions divided
  by the number of rows not ignored.

  The rows are taken 8192 at a time: 256 tiles. The sum over all rows is the sum over the tiles of each tile's sum
  (the index sets Fin 256 x Fin 8192 and Fin 2097152 correspond, row = 8192 * tile + position), with no appeal to
  finiteness: addition of extended reals is commutative and associative.
-/
import Idealize.ShloMosaic.PureOps.Ideal
import Idealize.ShloMosaic.PureOps.Ideal.Laws
import Idealize.ShloMosaic.Lib.ValueIdx
import Mathlib.Logic.Equiv.Fin.Basic
import Mathlib.Algebra.BigOperators.Fin

noncomputable section

namespace Cert.MaskedPick

open Idealize.ShloMosaic Idealize.ShloMosaic.ValueIdx
open scoped BigOperators

/-- The logits' shape and the targets' shape. -/
abbrev SX : Shape := ⟨2, ![2097152, 80]⟩
abbrev ST : Shape := ⟨1, ![2097152]⟩

/-- The word -1: the label of a row to ignore. -/
abbrev ignoreWord : BitVec 32 := 4294967295#32

/-- The real number 1 as both programs write it: the f32 word 0x3F800000. -/
abbrev oneWord : EReal := Ideal.ofBits .f32 0x3F800000#32

/-- One row: what a target word w picks from a row of 80 logits, as a one-hot selection computes it. -/
def pickOf (row : Fin 80 → EReal) (w : BitVec 32) : EReal :=
  ∑ c : Fin 80, if w = BitVec.ofNat 32 c.val then row c else 0

/-- One row's contribution: nothing when ignored, else the square of 1 minus the picked logit. -/
def lossOf (row : Fin 80 → EReal) (w : BitVec 32) : EReal :=
  if w = ignoreWord then 0 else (oneWord - pickOf row w) * (oneWord - pickOf row w)

/-- One row counts 1 unless ignored. -/
def countOf (w : BitVec 32) : EReal := if w = ignoreWord then 0 else 1

/-- The same of row r of the two arrays. -/
def picked (x : FVec Ideal SX .f32) (t : IVec ST 32) (r : Fin 2097152) : EReal :=
  pickOf (fun c => x (ix2 r c)) (t (ix1 r))
def rowLoss (x : FVec Ideal SX .f32) (t : IVec ST 32) (r : Fin 2097152) : EReal :=
  lossOf (fun c => x (ix2 r c)) (t (ix1 r))
def rowCount (t : IVec ST 32) (r : Fin 2097152) : EReal := countOf (t (ix1 r))

/-- The row at position p of tile n. -/
def rowOf (n : Fin 256) (p : Fin 8192) : Fin 2097152 := ⟨8192 * n.val + p.val, by have := n.isLt; have := p.isLt; omega⟩

/-- Tile n's sum of contributions and its count of rows not ignored (0 past the last tile). -/
def tileLoss (x : FVec Ideal SX .f32) (t : IVec ST 32) (n : ℕ) : EReal :=
  if h : n < 256 then ∑ p : Fin 8192, rowLoss x t (rowOf ⟨n, h⟩ p) else 0
def tileCount (t : IVec ST 32) (n : ℕ) : EReal :=
  if h : n < 256 then ∑ p : Fin 8192, rowCount t (rowOf ⟨n, h⟩ p) else 0

/-- The sum of all contributions, the count of rows not ignored, and the result. -/
def lossSum (x : FVec Ideal SX .f32) (t : IVec ST 32) : EReal := ∑ r : Fin 2097152, rowLoss x t r
def validCount (t : IVec ST 32) : EReal := ∑ r : Fin 2097152, rowCount t r
def meanLoss (x : FVec Ideal SX .f32) (t : IVec ST 32) : EReal := Ideal.div (lossSum x t) (validCount t)

/-- A sum over all rows is the sum over the 256 tiles of the sums over each tile's 8192 rows. -/
theorem sum_rows_eq_tiles (f : Fin 2097152 → EReal) :
    ∑ r : Fin 2097152, f r = ∑ n ∈ Finset.range 256, (if h : n < 256 then ∑ p : Fin 8192, f (rowOf ⟨n, h⟩ p) else 0) := by
  rw [Finset.sum_range]
  have e : ∑ r : Fin 2097152, f r = ∑ q : Fin 256 × Fin 8192, f (rowOf q.1 q.2) := by
    refine (Fintype.sum_equiv (finProdFinEquiv (m := 256) (n := 8192)) (fun q => f (rowOf q.1 q.2)) (fun r => f r) ?_).symm
    intro q
    have hq : rowOf q.1 q.2 = finProdFinEquiv q := by
      apply Fin.ext
      show 8192 * q.1.val + q.2.val = q.2.val + 8192 * q.1.val
      omega
    rw [hq]
  rw [e, Fintype.sum_prod_type]
  refine Finset.sum_congr rfl fun n _ => ?_
  rw [dif_pos n.isLt]

theorem lossSum_eq_tiles (x : FVec Ideal SX .f32) (t : IVec ST 32) :
    lossSum x t = ∑ n ∈ Finset.range 256, tileLoss x t n := sum_rows_eq_tiles _

theorem validCount_eq_tiles (t : IVec ST 32) :
    validCount t = ∑ n ∈ Finset.range 256, tileCount t n := sum_rows_eq_tiles _

/-- A target that is column k's number picks column k's logit: every other column's term is 0. -/
theorem pickOf_col (row : Fin 80 → EReal) (w : BitVec 32) (k : Fin 80) (h : w = BitVec.ofNat 32 k.val) :
    pickOf row w = row k := by
  unfold pickOf
  rw [Finset.sum_eq_single k]
  · rw [if_pos h]
  · intro c _ hc
    rw [if_neg]
    intro hc'
    apply hc
    have e : BitVec.ofNat 32 c.val = BitVec.ofNat 32 k.val := hc'.symm.trans h
    have e' := congrArg BitVec.toNat e
    simp only [BitVec.toNat_ofNat] at e'
    have := c.isLt; have := k.isLt
    exact Fin.ext (by omega)
  · intro hk; exact absurd (Finset.mem_univ k) hk

theorem picked_of_col (x : FVec Ideal SX .f32) (t : IVec ST 32) (r : Fin 2097152) (k : Fin 80)
    (h : t (ix1 r) = BitVec.ofNat 32 k.val) : picked x t r = x (ix2 r k) :=
  pickOf_col _ _ k h

end Cert.MaskedPick

end
-- ==== Proof.RefRow.lean ====
/-
  One row of the reference: with the row's target the ignore word or a column number, the masked square the reference
  sums at that row is the row's contribution. Its index is the target where the row is not ignored and 0 where it is;
  such an index is not negative, is at most 79, so the in-range flag is set and the gather reads that column of the row.
-/
import proofs.«406647_j39058432590486_1_alg».proof.Proof.RefRead
import proofs.«406647_j39058432590486_1_alg».proof.Proof.Spec
import Idealize.ShloMosaic.Lib.StableHlo.Predicate

noncomputable section

namespace Cert.ReferenceIdeal.Row

open Cert.ReferenceIdeal Cert.ReferenceIdeal.Gen Idealize.ShloMosaic Idealize.ShloMosaic.TcCoe Idealize.SL.Sem
open Idealize.ShloMosaic.ValueIdx Cert.MaskedPick

/-- A column number, as a word, is not the ignore word. -/
theorem col_ne_ignore (k : Fin 80) : BitVec.ofNat 32 k.val ≠ ignoreWord := by
  intro h
  have e := congrArg BitVec.toNat h
  simp only [BitVec.toNat_ofNat] at e
  have := k.isLt
  omega

/-- A column number, as a word, has value below 80. -/
theorem col_toNat (k : Fin 80) : (BitVec.ofNat 32 k.val).toNat = k.val := by
  have := k.isLt
  simp only [BitVec.toNat_ofNat]
  omega

/-- The mask at row r compares the row's target with the ignore word. -/
theorem mask_apply (x1 : IVec ST 32) (r : Fin 2097152) :
    ReadP.val_main_v1 (F := Ideal) x1 (ix1 r) = IntOp.cmpi .ne (x1 (ix1 r)) ignoreWord := by
  rw [ReadP.val_main_v1_apply, ReadP.val_main_v0_apply, ReadP.val_main_c_apply]

/-- An ignored row's mask bit is 0. -/
theorem mask_ignore (x1 : IVec ST 32) (r : Fin 2097152) (h : x1 (ix1 r) = ignoreWord) :
    ReadP.val_main_v1 (F := Ideal) x1 (ix1 r) = 0#1 := by
  rw [mask_apply, h]; decide

/-- A row whose target is a column number has mask bit 1. -/
theorem mask_col (x1 : IVec ST 32) (r : Fin 2097152) (k : Fin 80) (h : x1 (ix1 r) = BitVec.ofNat 32 k.val) :
    ReadP.val_main_v1 (F := Ideal) x1 (ix1 r) = 1#1 := by
  rw [mask_apply, h]
  unfold IntOp.cmpi
  rw [Idealize.ShloMosaic.StableHlo.Predicate.ofBool_eq_one_iff]
  exact bne_iff_ne.2 (col_ne_ignore k)

/-- Such a row's first index word is its target. -/
theorem idx0_col (x1 : IVec ST 32) (r : Fin 2097152) (k : Fin 80) (h : x1 (ix1 r) = BitVec.ofNat 32 k.val) :
    ReadP.val_main_v2 (F := Ideal) x1 (ix1 r) = BitVec.ofNat 32 k.val := by
  rw [ReadP.val_main_v2_apply, mask_col x1 r k h, select_one, h]

/-- The source index of the broadcast feeding the index chain, at a rank-3 position on row r, is row r. -/
theorem src_row (r : Fin 2097152) (j : S2097152x1x1.Idx) (hj : (j 0).val = r.val) :
    ReadP.idx_main_v3 (ReadP.idx_main_call1_v5 j) = ix1 r := by
  funext a
  match a with
  | ⟨0, _⟩ =>
    apply Fin.ext
    have h1 : (j 1).val < 1 := (j 1).isLt
    have h2 : (j 2).val < 1 := (j 2).isLt
    show (((j 0).val * 1 + (j 1).val) * 1 + (j 2).val) / 1 = r.val
    omega

/-- With the first index word w at row r a word of value below 80, the wrapped index word at every rank-3 position on
    row r is w: it is not negative, so 80 is not added. -/
theorem idx_word (x1 : IVec ST 32) (r : Fin 2097152) (w : BitVec 32)
    (hw : ReadP.val_main_v2 (F := Ideal) x1 (ix1 r) = w) (hlt : w.toNat < 80)
    (j : S2097152x1x1.Idx) (hj : (j 0).val = r.val) :
    ReadP.val_main_call1_v5 (F := Ideal) x1 j = w := by
  rw [ReadP.val_main_call1_v5_apply, ReadP.val_main_call1_v4_apply, ReadP.val_main_call1_v1_apply,
    ReadP.val_main_v3_apply, src_row r j hj, hw, ReadP.val_main_call1_v0_apply, ReadP.val_main_call1_c_apply]
  unfold Scalar.select
  rw [if_neg]
  intro h
  have := (Idealize.ShloMosaic.StableHlo.Predicate.slt_iff_toNat (a := w) (b := 0#32) (by omega) (by decide)).1 h
  simp at this

/-- So the in-range flag is set at every such position: 0 ≤ w and w ≤ 79. -/
theorem flag_elem (x1 : IVec ST 32) (r : Fin 2097152) (w : BitVec 32)
    (hw : ReadP.val_main_v2 (F := Ideal) x1 (ix1 r) = w) (hlt : w.toNat < 80)
    (j : S2097152x1x1.Idx) (hj : (j 0).val = r.val) :
    ReadP.val_main_call1_v11 (F := Ideal) x1 j = 1#1 := by
  rw [ReadP.val_main_call1_v11_apply, ReadP.val_main_call1_v7_apply, ReadP.val_main_call1_v10_apply,
    idx_word x1 r w hw hlt j hj, ReadP.val_main_call1_v6_apply, ReadP.val_main_call1_c_2_apply,
    ReadP.val_main_call1_v9_apply, ReadP.val_main_call1_v8_apply, ReadP.val_main_call1_c_1_apply]
  rw [(Idealize.ShloMosaic.StableHlo.Predicate.sge_iff_toNat (a := w) (b := 0#32) (by omega) (by decide)).2 (Nat.zero_le _),
    (Idealize.ShloMosaic.StableHlo.Predicate.sle_iff_toNat (a := w) (b := 79#32) (by omega) (by decide)).2
      (by show w.toNat ≤ 79; omega)]
  decide

/-- A left fold by and from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1) (1#1) = 1#1 from by decide]
    exact foldl_andi_one f l (fun n hn => h n (List.mem_cons_of_mem _ hn))

/-- The flag reduced by and over the last axis (of size one), at row r. -/
theorem flag_row (x1 : IVec ST 32) (r : Fin 2097152) (w : BitVec 32)
    (hw : ReadP.val_main_v2 (F := Ideal) x1 (ix1 r) = w) (hlt : w.toNat < 80) :
    ReadP.val_main_call1_v12 (F := Ideal) x1 (ix2 r 0) = 1#1 := by
  unfold ReadP.val_main_call1_v12
  rw [Host.reduce_eq_foldl]
  refine foldl_andi_one _ _ (fun i hi => ?_)
  have hd := of_decide_eq_true (List.mem_filter.1 hi).2
  refine flag_elem x1 r w hw hlt i ?_
  have := Facts₀.reducesTo_S2097152x1x1_S2097152x1_d2.drop_apply_val_of_eq i 0 0
  rw [← this, hd]

/-- A word of value below 80, read signed, is its value; so the clamp to 79 keeps it. -/
theorem clamp_small (w : BitVec 32) (hlt : w.toNat < 80) : min w.toInt.toNat (80 - 1) = w.toNat := by
  rw [Idealize.ShloMosaic.StableHlo.Predicate.toInt_eq_toNat_of_lt (a := w) (by omega), Int.toNat_natCast]
  omega

/-- The gather at row r reads the operand at row r, column min (the index word, read signed) 79. -/
theorem gather_row (x0 : FVec Ideal SX .f32) (x1 : IVec ST 32) (r : Fin 2097152) (w : BitVec 32)
    (hw : ReadP.val_main_v2 (F := Ideal) x1 (ix1 r) = w) (hlt : w.toNat < 80) :
    ReadP.val_main_call1_v13 (F := Ideal) x0 x1 (ix2 r 0) = x0 (ix2 r ⟨w.toNat, hlt⟩) := by
  unfold ReadP.val_main_call1_v13 Host.gather
  congr 1
  funext a
  match a with
  | ⟨0, _⟩ =>
    apply Fin.ext
    show GatherDims.start _ (ix2 r 0) (ReadP.val_main_call1_v5 (F := Ideal) x1) 0 + GatherDims.batchCoord _ (ix2 r 0) 0
      + GatherDims.offCoord _ (ix2 r 0) 0 = r.val
    rw [GatherDims.start_batching _ _ _ _ (by decide), GatherDims.offCoord_eq_zero _ _ _ (by decide), Nat.zero_add,
      Nat.add_zero]
    rfl
  | ⟨1, _⟩ =>
    apply Fin.ext
    show GatherDims.start _ (ix2 r 0) (ReadP.val_main_call1_v5 (F := Ideal) x1) 1 + GatherDims.batchCoord _ (ix2 r 0) 1
      + GatherDims.offCoord _ (ix2 r 0) 1 = w.toNat
    rw [GatherDims.batchCoord_eq_zero _ _ _ (by decide), GatherDims.offCoord_eq_zero _ _ _ (by decide)]
    unfold GatherDims.start
    rw [dif_pos (by decide)]
    rw [idx_word x1 r w hw hlt _ rfl]
    exact clamp_small w hlt

/-- The reshape back to rank 1 reads the rank-2 value at (r, 0). -/
theorem back_row (r : Fin 2097152) : ReadP.idx_main_v5 (ix1 r) = ix2 r 0 := by
  funext a
  match a with
  | ⟨0, _⟩ => exact Fin.ext (Nat.div_one _)
  | ⟨1, _⟩ => rfl

/-- The reference's masked square at row r is the specification's contribution of row r. -/
theorem row_stage (x0 : FVec Ideal SX .f32) (x1 : IVec ST 32)
    (hrange : ∀ r : Fin 2097152, x1 (ix1 r) = ignoreWord ∨ ∃ k : Fin 80, x1 (ix1 r) = BitVec.ofNat 32 k.val)
    (r : Fin 2097152) :
    Cert.ReferenceIdeal.ReadP.val_main_v9 (F := Ideal) x0 x1 (ix1 r) = rowLoss x0 x1 r := by
  rw [ReadP.val_main_v9_apply]
  rcases hrange r with h | ⟨k, h⟩
  · -- an ignored row: the mask bit is 0, the result the zero word, and the contribution is 0
    rw [mask_ignore x1 r h, select_zero, ReadP.val_main_call2_v1_apply, ReadP.val_main_call2_v0_apply,
      ReadP.val_main_cst_1_apply, Ideal.ofBits_def, Ideal.ofBits_zero_f32]
    unfold rowLoss lossOf
    rw [if_pos h]
  · -- a row whose target is column k: the index word is the target, the flag is set, the gather reads column k
    have hw := idx0_col x1 r k h
    have hlt : (BitVec.ofNat 32 k.val).toNat < 80 := by rw [col_toNat]; exact k.isLt
    have hk : (⟨(BitVec.ofNat 32 k.val).toNat, hlt⟩ : Fin 80) = k := Fin.ext (col_toNat k)
    rw [mask_col x1 r k h, select_one, ReadP.val_main_v8_apply, ReadP.val_main_v7_apply, ReadP.val_main_v6_apply,
      ReadP.val_main_cst_apply, ReadP.val_main_v5_apply, back_row, ReadP.val_main_v4_apply,
      flag_row x1 r _ hw hlt, select_one, gather_row x0 x1 r _ hw hlt, hk]
    unfold rowLoss lossOf
    rw [if_neg (by rw [h]; exact col_ne_ignore k), pickOf_col _ _ k h]
    rfl

end Cert.ReferenceIdeal.Row

end
-- ==== Proof.RefCount.lean ====
/-
  The reference's count: the 32-bit sum of the widened "not ignored" bits of the 2097152 rows cannot wrap, so read as an
  integer it is the number of rows not ignored, and converted to a float at the extended reals it is the sum over the
  rows of 1 where the row is not ignored and 0 where it is.
-/
import proofs.«406647_j39058432590486_1_alg».proof.Proof.RefRead
import proofs.«406647_j39058432590486_1_alg».proof.Proof.Spec
import Idealize.ShloMosaic.Lib.StableHlo.Predicate

noncomputable section

namespace Cert.ReferenceIdeal.Count

open Cert.ReferenceIdeal Cert.ReferenceIdeal.Gen Idealize.ShloMosaic Idealize.ShloMosaic.TcCoe Idealize.SL.Sem
open Idealize.ShloMosaic.ValueIdx Cert.MaskedPick

/-- The rank-1 indices of the targets' shape correspond to the row numbers. -/
def rowEquiv : ST.Idx ≃ Fin 2097152 where
  toFun j := j 0
  invFun r := ix1 r
  left_inv j := (eq_ix1 j).symm
  right_inv _ := rfl

/-- One row's widened "not ignored" bit, as a number: 0 if the row's word is the ignored one, else 1. -/
theorem bit_toNat (x1 : IVec ST 32) (j : ST.Idx) :
    (ReadP.val_main_v10 (F := Ideal) x1 j).toNat = if x1 j = ignoreWord then 0 else 1 := by
  rw [ReadP.val_main_v10_apply, ReadP.val_main_v1_apply, ReadP.val_main_v0_apply, ReadP.val_main_c_apply,
    Idealize.ShloMosaic.StableHlo.Predicate.toNat_setWidth_bit]
  show (if BitVec.ofBool (x1 j != 4294967295#32) = 1#1 then 1 else 0) = _
  by_cases h : x1 j = ignoreWord
  · rw [if_pos h, h]; rfl
  · rw [if_neg h, if_pos]
    rw [Idealize.ShloMosaic.StableHlo.Predicate.ofBool_eq_one_iff]
    exact bne_iff_ne.2 h

/-- The natural-number cast into the extended reals goes through a finite sum. -/
theorem coe_nat_sum {ι : Type} (s : Finset ι) (f : ι → ℕ) :
    (((∑ k ∈ s, f k : ℕ) : ℝ) : EReal) = ∑ k ∈ s, (((f k : ℕ) : ℝ) : EReal) := by
  classical
  induction s using Finset.induction_on with
  | empty => simp
  | insert a s ha ih => rw [Finset.sum_insert ha, Finset.sum_insert ha, Nat.cast_add, EReal.coe_add, ih]

/-- The rows' bits, added as numbers, are the rows' counts, added. -/
theorem sum_bits (x1 : IVec ST 32) :
    ∑ j : ST.Idx, (ReadP.val_main_v10 (F := Ideal) x1 j).toNat
      = ∑ r : Fin 2097152, (if x1 (ix1 r) = ignoreWord then 0 else 1) := by
  refine Fintype.sum_equiv rowEquiv _ _ fun j => ?_
  rw [bit_toNat]
  exact congrArg (fun k => if x1 k = ignoreWord then 0 else 1) (eq_ix1 j)

theorem sum_bits_le (x1 : IVec ST 32) :
    ∑ j : ST.Idx, (ReadP.val_main_v10 (F := Ideal) x1 j).toNat ≤ 2097152 := by
  rw [sum_bits]
  refine (Finset.sum_le_sum (g := fun _ => 1) fun r _ => ?_).trans ?_
  · split <;> omega
  · simp

/-- The 32-bit sum does not wrap: as a number it is the sum of the bits. -/
theorem count_toNat (x1 : IVec ST 32) (i : S_.Idx) :
    (ReadP.val_main_v11 (F := Ideal) x1 i).toNat = ∑ j : ST.Idx, (ReadP.val_main_v10 (F := Ideal) x1 j).toNat := by
  classical
  unfold ReadP.val_main_v11
  rw [Host.reduce_eq_fold]
  have hall : (Finset.univ.filter fun k : S2097152.Idx => reducesTo_S2097152_S_d0.drop k = i) = Finset.univ :=
    Finset.filter_true_of_mem fun k _ => Subsingleton.elim _ _
  rw [hall]
  have hb := sum_bits_le x1
  exact Idealize.ShloMosaic.StableHlo.Predicate.toNat_fold_addi _ _ (lt_of_le_of_lt hb (by norm_num))

/-- The reference's converted integer count is the specification's count. -/
theorem count_stage (x1 : IVec ST 32) (i : S_.Idx) :
    Cert.ReferenceIdeal.ReadP.val_main_v12 (F := Ideal) x1 i = validCount x1 := by
  rw [ReadP.val_main_v12_apply]
  show (((ReadP.val_main_v11 (F := Ideal) x1 i).toInt : ℝ) : EReal) = _
  have hn := count_toNat x1 i
  have hb := sum_bits_le x1
  rw [Idealize.ShloMosaic.StableHlo.Predicate.toInt_eq_toNat_of_lt (by rw [hn]; exact lt_of_le_of_lt hb (by norm_num)),
    Int.cast_natCast, hn, sum_bits, coe_nat_sum]
  unfold validCount rowCount countOf
  refine Finset.sum_congr rfl fun r _ => ?_
  split <;> simp

end Cert.ReferenceIdeal.Count

end
-- ==== Proof.RefValue.lean ====
/-
  The reference's last stage is the loss: its float sum over all rows of the masked squares is the sum of the rows'
  contributions (row by row, under the targets' range), its converted integer count is the count, and it divides the
  one by the other.
-/
import proofs.«406647_j39058432590486_1_alg».proof.Proof.RefRow
import proofs.«406647_j39058432590486_1_alg».proof.Proof.RefCount

noncomputable section

namespace Cert.ReferenceIdeal.LossValue

open Cert.ReferenceIdeal Cert.ReferenceIdeal.Gen Idealize.ShloMosaic Idealize.ShloMosaic.TcCoe Idealize.SL.Sem
open Idealize.ShloMosaic.ValueIdx Cert.MaskedPick
open scoped BigOperators

/-- The rank-1 indices of the targets' shape correspond to the row numbers. -/
def rowIdxEquiv : ST.Idx ≃ Fin 2097152 where
  toFun j := j 0
  invFun r := ix1 r
  left_inv j := (eq_ix1 j).symm
  right_inv _ := rfl

/-- Under the targets' range, the reference's result is the loss of the two arguments, at its one index. -/
theorem val_eq_meanLoss (x0 : FVec Ideal SX .f32) (x1 : IVec ST 32)
    (hrange : ∀ r : Fin 2097152, x1 (ix1 r) = ignoreWord ∨ ∃ k : Fin 80, x1 (ix1 r) = BitVec.ofNat 32 k.val) :
    Cert.ReferenceIdeal.ReadP.val_main_v14 (F := Ideal) x0 x1 = fun _ => meanLoss x0 x1 := by
  funext i
  rw [Cert.ReferenceIdeal.ReadP.val_main_v14_apply, Cert.ReferenceIdeal.ReadP.val_main_v13_apply,
    Cert.ReferenceIdeal.Count.count_stage, Cert.ReferenceIdeal.ReadP.val_main_cst_3_apply]
  have hsum : ∑ j : S2097152.Idx, Cert.ReferenceIdeal.ReadP.val_main_v9 (F := Ideal) x0 x1 j = lossSum x0 x1 := by
    unfold lossSum
    refine Fintype.sum_equiv rowIdxEquiv _ _ fun j => ?_
    rw [eq_ix1 j]
    exact Cert.ReferenceIdeal.Row.row_stage x0 x1 hrange (j 0)
  rw [hsum, Ideal.ofBits_def, Ideal.ofBits_zero_f32, zero_add, Ideal.hostDivf_def]
  rfl

end Cert.ReferenceIdeal.LossValue

end
-- ==== Proof.PreRange.lean ====
/-
  What the precondition says of the targets: each is the ignore word -1 or the number of one of the 80 columns.
  (Read signed, -1 <= t < 80; a word in that range is -1 or below 80 unsigned.)
-/
import proofs.«406647_j39058432590486_1_alg».proof.Pre_finite_inputs
import proofs.«406647_j39058432590486_1_alg».proof.Proof.Gen.Pre_finite_inputs
import proofs.«406647_j39058432590486_1_alg».proof.Proof.Spec
import Idealize.ShloMosaic.Lib.ReduceAll
import Idealize.ShloMosaic.Lib.StableHlo.Predicate

noncomputable section

namespace Cert.PreRange

open Idealize.ShloMosaic Idealize.ShloMosaic.ValueIdx Cert.MaskedPick

/-- A 32-bit word that reads, signed, at least -1 and below 80 is the word -1 or the number of one of the 80 columns:
    read unsigned it is either below 2^31, where both readings agree and the upper bound gives a value below 80,
    or at least 2^31, where the signed reading is the value minus 2^32 and the lower bound leaves only 2^32 - 1. -/
theorem word_range (w : BitVec 32) (h1 : IntOp.cmpi .sge w 4294967295#32 = 1#1)
    (h2 : IntOp.cmpi .slt w 80#32 = 1#1) :
    w = ignoreWord ∨ ∃ k : Fin 80, w = BitVec.ofNat 32 k.val := by
  simp only [IntOp.cmpi, StableHlo.Predicate.ofBool_eq_one_iff, BitVec.sle, BitVec.slt, decide_eq_true_eq] at h1 h2
  have e1 : (4294967295#32 : BitVec 32).toInt = -1 := by decide
  have e2 : (80#32 : BitVec 32).toInt = 80 := by decide
  rw [e1] at h1; rw [e2] at h2
  unfold BitVec.toInt at h1 h2
  have hw := w.isLt
  by_cases hc : 2 * w.toNat < 2 ^ 32
  · right; rw [if_pos hc] at h1 h2
    exact ⟨⟨w.toNat, by omega⟩,
      BitVec.eq_of_toNat_eq (by rw [BitVec.toNat_ofNat]; exact (Nat.mod_eq_of_lt hw).symm)⟩
  · left; rw [if_neg hc] at h1 h2
    apply BitVec.eq_of_toNat_eq
    show w.toNat = 4294967295
    omega

/-- The precondition's second conjunct, decoded row by row. -/
theorem range_of_pre [Cert.Pre_finite_inputs.Facts] (x0 : FVec Ideal SX .f32) (x1 : IVec ST 32)
    (h : Cert.Pre_finite_inputs.fn (F := Ideal) x0 x1 = fun _ => 1#1) :
    ∀ r : Fin 2097152, x1 (ix1 r) = ignoreWord ∨ ∃ k : Fin 80, x1 (ix1 r) = BitVec.ofNat 32 k.val := by
  intro r
  -- the rank-0 result has one index, so a reduction into it that is 1 met a 1 at every operand index
  haveI : Subsingleton Cert.Pre_finite_inputs.S_.Idx := ⟨fun a b => funext fun d => d.elim0⟩
  have h0 := congrFun h ValueIdx.ix0
  dsimp only [Cert.Pre_finite_inputs.fn] at h0
  -- the whole is the and of two all-reductions; the second one is over the targets
  have h9 := (IntOp.andi_eq_one.1 h0).2
  have hr := Host.reduce_andi_all _ _ _ _ _ h9 (ix1 r)
  -- at row r the reduced predicate is the and of the two signed comparisons against the constants -1 and 80
  simp only [andi, cmpi, broadcastInDim, constantI] at hr
  obtain ⟨ha, hb⟩ := IntOp.andi_eq_one.1 hr
  exact word_range _ ha hb

end Cert.PreRange

end
-- ==== Proof.KernelPieces.lean ====
/-
  What each control case of the kernel's body leaves behind, as values of what it loads.

  The body keeps two one-entry accumulators. At the first grid point it stores 0 into each and then its update; at every
  other point it stores only the update; an update of the first is what it held plus the tile's sum of contributions
  (k0_pay5 of the two input blocks and the held value), an update of the second what it held plus the tile's count
  (k0_pay6). At the last grid point it also copies both accumulators, as just updated, into the two result blocks.
  Each statement below reads one of these stores back: the body's stores into a buffer, laid over whatever it held,
  read whole, are the last store's value, and a load of a buffer the body has just stored whole is that store's value.
-/
import proofs.«406647_j39058432590486_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-! ## The first point: the reset, then the update over it -/

theorem firstSum (c : Dev nD) (i : grid0.Coords) (arg1 : Memref sig .tc .vmem S8192x80 .f32) (harg1 : arg1.IsWhole) (arg2 : Memref sig .tc .vmem S8192x1 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 : Vec F S8192x80 .f32) (x1 : Vec F S8192x1 .i32) :
    sout0_A_0 c i arg1 harg1 arg2 harg2 arg3 harg3 arg4 harg4 arg5 harg5 arg6 harg6 hc0 hc1 x0 x1 = k0_pay5 x0 x1 (k0_pay1 (F := F)) := by
  unfold sout0_A_0
  rw [View.read_writes_eq_canon _ _ _ (scover0_A_0 c i arg1 harg1 arg2 harg2 arg3 harg3 arg4 harg4 arg5 harg5 arg6 harg6 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread, harg5.read_unread, harg6.read_unread, View.ld_unit_zero (S := S8192x80) hz, View.ld_unit_zero (S := S8192x1) hz, View.ld_unit_zero (S := S1x1) hz]

theorem firstCount (c : Dev nD) (i : grid0.Coords) (arg1 : Memref sig .tc .vmem S8192x80 .f32) (harg1 : arg1.IsWhole) (arg2 : Memref sig .tc .vmem S8192x1 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 : Vec F S8192x80 .f32) (x1 : Vec F S8192x1 .i32) :
    sout0_A_1 c i arg1 harg1 arg2 harg2 arg3 harg3 arg4 harg4 arg5 harg5 arg6 harg6 hc0 hc1 x0 x1 = k0_pay6 x1 (k0_pay2 (F := F)) := by
  unfold sout0_A_1
  rw [View.read_writes_eq_canon _ _ _ (scover0_A_1 c i arg1 harg1 arg2 harg2 arg3 harg3 arg4 harg4 arg5 harg5 arg6 harg6 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread, harg5.read_unread, harg6.read_unread, View.ld_unit_zero (S := S8192x80) hz, View.ld_unit_zero (S := S8192x1) hz, View.ld_unit_zero (S := S1x1) hz]

/-! ## A middle point: the update over what the point before left -/

theorem midSum (c : Dev nD) (i : grid0.Coords) (arg1 : Memref sig .tc .vmem S8192x80 .f32) (harg1 : arg1.IsWhole) (arg2 : Memref sig .tc .vmem S8192x1 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 : Vec F S8192x80 .f32) (x1 : Vec F S8192x1 .i32) (xs0 xs1 : Vec F S1x1 .f32) :
    sout0_B_0 c i arg1 harg1 arg2 harg2 arg3 harg3 arg4 harg4 arg5 harg5 arg6 harg6 hc0 hc1 x0 x1 xs0 xs1 = k0_pay5 x0 x1 xs0 := by
  unfold sout0_B_0
  rw [View.read_writes_eq_canon _ _ _ (scover0_B_0 c i arg1 harg1 arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg1.read_unread, harg2.read_unread, harg5.read_unread, harg6.read_unread, View.ld_unit_zero (S := S8192x80) hz, View.ld_unit_zero (S := S8192x1) hz, View.ld_unit_zero (S := S1x1) hz]

theorem midCount (c : Dev nD) (i : grid0.Coords) (arg1 : Memref sig .tc .vmem S8192x80 .f32) (harg1 : arg1.IsWhole) (arg2 : Memref sig .tc .vmem S8192x1 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 : Vec F S8192x80 .f32) (x1 : Vec F S8192x1 .i32) (xs0 xs1 : Vec F S1x1 .f32) :
    sout0_B_1 c i arg1 harg1 arg2 harg2 arg3 harg3 arg4 harg4 arg5 harg5 arg6 harg6 hc0 hc1 x0 x1 xs0 xs1 = k0_pay6 x1 xs1 := by
  unfold sout0_B_1
  rw [View.read_writes_eq_canon _ _ _ (scover0_B_1 c i arg1 harg1 arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg1.read_unread, harg2.read_unread, harg5.read_unread, harg6.read_unread, View.ld_unit_zero (S := S8192x80) hz, View.ld_unit_zero (S := S8192x1) hz, View.ld_unit_zero (S := S1x1) hz]

/-! ## The last point: the same update, and both accumulators copied out -/

theorem lastSum (c : Dev nD) (i : grid0.Coords) (arg1 : Memref sig .tc .vmem S8192x80 .f32) (harg1 : arg1.IsWhole) (arg2 : Memref sig .tc .vmem S8192x1 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S8192x80 .f32) (x1 : Vec F S8192x1 .i32) (xs0 xs1 : Vec F S1x1 .f32) :
    sout0_C_0 c i arg1 harg1 arg2 harg2 arg3 harg3 arg4 harg4 arg5 harg5 arg6 harg6 hc0 hc1 x0 x1 xs0 xs1 = k0_pay5 x0 x1 xs0 := by
  unfold sout0_C_0
  rw [View.read_writes_eq_canon _ _ _ (scover0_C_0 c i arg1 harg1 arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg1.read_unread, harg2.read_unread, harg5.read_unread, harg6.read_unread, View.ld_unit_zero (S := S8192x80) hz, View.ld_unit_zero (S := S8192x1) hz, View.ld_unit_zero (S := S1x1) hz]

theorem lastCount (c : Dev nD) (i : grid0.Coords) (arg1 : Memref sig .tc .vmem S8192x80 .f32) (harg1 : arg1.IsWhole) (arg2 : Memref sig .tc .vmem S8192x1 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S8192x80 .f32) (x1 : Vec F S8192x1 .i32) (xs0 xs1 : Vec F S1x1 .f32) :
    sout0_C_1 c i arg1 harg1 arg2 harg2 arg3 harg3 arg4 harg4 arg5 harg5 arg6 harg6 hc0 hc1 x0 x1 xs0 xs1 = k0_pay6 x1 xs1 := by
  unfold sout0_C_1
  rw [View.read_writes_eq_canon _ _ _ (scover0_C_1 c i arg1 harg1 arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg1.read_unread, harg2.read_unread, harg5.read_unread, harg6.read_unread, View.ld_unit_zero (S := S8192x80) hz, View.ld_unit_zero (S := S8192x1) hz, View.ld_unit_zero (S := S1x1) hz]

theorem outSum (c : Dev nD) (i : grid0.Coords) (arg1 : Memref sig .tc .vmem S8192x80 .f32) (harg1 : arg1.IsWhole) (arg2 : Memref sig .tc .vmem S8192x1 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S8192x80 .f32) (x1 : Vec F S8192x1 .i32) (xs0 xs1 : Vec F S1x1 .f32) :
    out0_C_2 c i arg1 harg1 arg2 harg2 arg3 harg3 arg4 harg4 arg5 harg5 arg6 harg6 hc0 hc1 x0 x1 xs0 xs1 = k0_pay5 x0 x1 xs0 := by
  unfold out0_C_2
  rw [View.read_writes_eq_canon _ _ _ (cover0_C_2 c i arg1 harg1 arg2 harg2 arg3 harg3 arg4 harg4 arg5 harg5 arg6 harg6 hc0 hc1 x0 x1 xs0 xs1)]
  unfold kernelRun0_C
  dsimp only
  sl_unfold_words
  rw [View.canon_unit_zero hz, View.readCov_unit_zero (S := S1x1) _ hz]
  simp only [View.readAt_eq_ld, harg1.read_unread, harg2.read_unread, harg5.read_unread, harg6.read_unread, View.ld_unit_zero (S := S8192x80) hz, View.ld_unit_zero (S := S8192x1) hz, View.ld_unit_zero (S := S1x1) hz]

theorem outCount (c : Dev nD) (i : grid0.Coords) (arg1 : Memref sig .tc .vmem S8192x80 .f32) (harg1 : arg1.IsWhole) (arg2 : Memref sig .tc .vmem S8192x1 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S8192x80 .f32) (x1 : Vec F S8192x1 .i32) (xs0 xs1 : Vec F S1x1 .f32) :
    out0_C_3 c i arg1 harg1 arg2 harg2 arg3 harg3 arg4 harg4 arg5 harg5 arg6 harg6 hc0 hc1 x0 x1 xs0 xs1 = k0_pay6 x1 xs1 := by
  unfold out0_C_3
  rw [View.read_writes_eq_canon _ _ _ (cover0_C_3 c i arg1 harg1 arg2 harg2 arg3 harg3 arg4 harg4 arg5 harg5 arg6 harg6 hc0 hc1 x0 x1 xs0 xs1)]
  unfold kernelRun0_C
  dsimp only
  sl_unfold_words
  rw [View.canon_unit_zero hz, View.readCov_unit_zero (S := S1x1) _ hz]
  simp only [View.readAt_eq_ld, harg1.read_unread, harg2.read_unread, harg5.read_unread, harg6.read_unread, View.ld_unit_zero (S := S8192x80) hz, View.ld_unit_zero (S := S8192x1) hz, View.ld_unit_zero (S := S1x1) hz]

end Cert.KernelIdeal.Pieces

end
-- ==== Proof.KernelBlocks.lean ====
/-
  What the kernel's two input windows read at a grid point, in terms of the arrays as launched.

  Point t's block of the logits is rows 8192 t … 8192 t + 8191 of the array, all 80 columns: its entry (p, k) is the
  array's entry (8192 t + p, k). The targets reach the kernel as a column [2097152, 1] — the host reshapes the vector
  before the region, and a reshape keeps the row-major position, so the column's entry (r, 0) is the vector's entry r —
  and point t's block of that column is its rows 8192 t … 8192 t + 8191: its entry (p, 0) is the vector's entry
  8192 t + p. A block's coordinate along an axis is the block index times the block's extent plus the coordinate inside
  the block; the block indices are read off the printed index maps once, over the 256 points.
-/
import proofs.«406647_j39058432590486_1_alg».proof.Proof.Gen.KernelIdeal.Frame
import proofs.«406647_j39058432590486_1_alg».proof.Proof.Spec
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.MaskedPick

variable {F : FTy → Type} [FloatOps F]
variable (m : (ℓ : Loc nD τ sig) → Buf (Elt F) ℓ)

/-- A grid point as a tile number. -/
def tileOf (t : Fin cfg0.N) : Fin 256 := ⟨t.val, lt_of_lt_of_eq t.isLt (show cfg0.N = 256 from N_0)⟩

/-- The two input windows' block indices at point t: (t, 0) for both. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The logits block at point t, entry (p, k): the launched array's entry (8192 t + p, k). -/
theorem logits_block (c : Dev nD) (t : Fin cfg0.N) (p : Fin 8192) (k : Fin 80) :
    (iblk m c 0 t : Vec F S8192x80 .f32) (ix2 p k)
      = (m ((c : Thread nD τ).loc main_arg0) : Vec F S2097152x80 .f32) (ix2 (rowOf (tileOf t) p) k) := by
  have hi := block_indices t
  unfold iblk
  rw [View.read_apply]
  show V m c main_arg0 _ = _
  rw [V_main_arg0]
  congr 1
  funext a
  apply Fin.ext
  match a with
  | ⟨0, _⟩ => show win0_0.index t 0 * 8192 + 1 * p.val = 8192 * t.val + p.val; rw [hi.1]; omega
  | ⟨1, _⟩ => show win0_0.index t 1 * 80 + 1 * k.val = k.val; rw [hi.2.1]; omega

/-- The targets as the region finds them: the launched vector reshaped to a column. -/
theorem targets_column (c : Dev nD) :
    (V m c main_v0 : Vec F S2097152x1 .i32)
      = shapeCast S2097152x1 (m ((c : Thread nD τ).loc main_arg1) : Vec F S2097152 .i32) shapeCasts_S2097152_S2097152x1 := by
  show StableHlo.after hostOps0 (fun b => m (c, b)) (Proc.devRef .tc main_v0) = _
  after_results
  rfl

/-- The targets block at point t, entry (p, 0): the launched vector's entry 8192 t + p. -/
theorem targets_block (c : Dev nD) (t : Fin cfg0.N) (p : Fin 8192) :
    (iblk m c 1 t : Vec F S8192x1 .i32) (ix2 p (0 : Fin 1))
      = (m ((c : Thread nD τ).loc main_arg1) : Vec F S2097152 .i32) (ix1 (rowOf (tileOf t) p)) := by
  have hi := block_indices t
  unfold iblk
  rw [View.read_apply]
  show V m c main_v0 _ = _
  rw [targets_column]
  refine shapeCast_apply _ _ _ _ ?_
  show ((⟨1, ![2097152]⟩ : Shape).rowMajor (ix1 (rowOf (tileOf t) p))).val
    = ((⟨2, ![2097152, 1]⟩ : Shape).rowMajor (((cfg0.win 1).blk t).view.emb (ix2 p (0 : Fin 1)))).val
  rw [Shape.rowMajor_val_one, Shape.rowMajor_val_two]
  show 8192 * t.val + p.val = (win0_1.index t 0 * 8192 + 1 * p.val) * 1 + (win0_1.index t 1 * 1 + 1 * 0)
  rw [hi.2.2.1, hi.2.2.2]; omega

end Cert.KernelIdeal.Blocks

end
-- ==== Proof.KernelTile.lean ====
/-
  The kernel body's four stored values at the extended reals, each as a function of what the body loads: the two
  resets are 0; the first accumulator's update is what it held plus the tile's sum of the rows' contributions; the
  second's is what it held plus the tile's count of rows not ignored. A row of the tile is a row of the 8192 x 80 block
  with the word at the same row of the 8192 x 1 block.
-/
import proofs.«406647_j39058432590486_1_alg».proof.Proof.Gen.KernelIdeal.Skeleton
import proofs.«406647_j39058432590486_1_alg».proof.Proof.Spec
import Idealize.ShloMosaic.Lib.Pipeline.Value
import Idealize.ShloMosaic.Lib.ValueLayout
import Idealize.ShloMosaic.Lib.StableHlo.Predicate

noncomputable section

namespace Cert.KernelIdeal.Tile

open Cert.KernelIdeal Cert.KernelIdeal.Gen Idealize.ShloMosaic Idealize.ShloMosaic.ValueIdx Cert.MaskedPick
open scoped BigOperators

/-! ## The layout operations and the two sums, read at coordinates -/

section Helpers

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 8192 rows of a one-column block, read at the one index of its result. -/
theorem sum_rows (src : FVec Ideal S8192x1 .f32) (h : S8192x1.Reduces [0] S1) (hφ : FKind.Formats .f32)
    (hacc : (0x00000000#32 : BitVec 32) = FKind.add.neutral .f32 hφ) (i : Fin 1) :
    multiReduction (F := Ideal) .add [0] S1 src 0x00000000#32 h hφ hacc (ix1 i) = ∑ p : Fin 8192, src (ix2 p (0 : Fin 1)) := by
  refine (Ideal.multiReduction_add_single src _ h hφ hacc (ix1 i)).trans ?_
  refine Finset.sum_congr rfl fun p _ => congrArg src ?_
  funext c
  refine Fin.ext ?_
  match c with
  | ⟨0, _⟩ => rfl
  | ⟨1, _⟩ => show i.val = 0; omega

/-- The sum over the 80 columns of a block, read at row `p` of its result. -/
theorem sum_cols (src : FVec Ideal S8192x80 .f32) (h : S8192x80.Reduces [1] S8192) (hφ : FKind.Formats .f32)
    (hacc : (0x00000000#32 : BitVec 32) = FKind.add.neutral .f32 hφ) (p : Fin 8192) :
    multiReduction (F := Ideal) .add [1] S8192 src 0x00000000#32 h hφ hacc (ix1 p) = ∑ c : Fin 80, src (ix2 p c) := by
  refine (Ideal.multiReduction_add_single src _ h hφ hacc (ix1 p)).trans ?_
  refine Finset.sum_congr rfl fun c _ => congrArg src ?_
  funext d
  refine Fin.ext ?_
  match d with
  | ⟨0, _⟩ => rfl
  | ⟨1, _⟩ => rfl

/-- The block of target words passes through its identity cast unchanged. -/
theorem pay3_eq (tb : Vec Ideal S8192x1 .i32) : k0_pay3 (F := Ideal) tb = tb := shapeCast_self _ _

/-- The "not ignored" bit of row `p`: the comparison of the row's word with the word -1. -/
theorem pay4_apply (tb : Vec Ideal S8192x1 .i32) (p : Fin 8192) (u : Fin 1) :
    k0_pay4 (F := Ideal) tb (ix2 p u) = IntOp.cmpi .ne (tb (ix2 p u)) ignoreWord := by
  unfold k0_pay4
  rw [pay3_eq]
  rfl

/-- The comparison bit as a word: 0 on the ignored word, 1 on any other. -/
theorem ne_bit (w : BitVec 32) : IntOp.cmpi .ne w ignoreWord = if w = ignoreWord then 0#1 else 1#1 := by
  unfold IntOp.cmpi
  by_cases h : w = ignoreWord
  · rw [if_pos h, h]; rfl
  · rw [if_neg h]
    have : (w != ignoreWord) = true := by simpa using h
    show BitVec.ofBool (w != ignoreWord) = 1#1
    rw [this]; rfl

/-- The bit widened to 32 bits and read as a signed integer is the row's count. -/
theorem count_word (w : BitVec 32) :
    FloatOps.sitofp (F := Ideal) .f32 ((IntOp.cmpi .ne w ignoreWord).setWidth 32) = countOf w := by
  rw [ne_bit]
  unfold countOf
  by_cases h : w = ignoreWord
  · rw [if_pos h, if_pos h]
    show (((((0#1 : BitVec 1).setWidth 32).toInt : ℤ) : ℝ) : EReal) = 0
    rw [show ((0#1 : BitVec 1).setWidth 32).toInt = 0 by decide]
    simp
  · rw [if_neg h, if_neg h]
    show (((((1#1 : BitVec 1).setWidth 32).toInt : ℤ) : ℝ) : EReal) = 1
    rw [show ((1#1 : BitVec 1).setWidth 32).toInt = 1 by decide]
    simp

/-- The one-hot selection of row `p` summed over the 80 columns is the logit the row's word picks. -/
theorem pick_apply (xb : Vec Ideal S8192x80 .f32) (tb : Vec Ideal S8192x1 .i32)
    (hb : S8192x1.Broadcasts S8192x80) (hi : S8192x80.Iotas .tc 32 [1])
    (h : S8192x80.Reduces [1] S8192) (hφ : FKind.Formats .f32)
    (hacc : (0x00000000#32 : BitVec 32) = FKind.add.neutral .f32 hφ) (p : Fin 8192) :
    multiReduction (F := Ideal) .add [1] S8192
        (select (cmpi .eq (broadcastTo S8192x80 (k0_pay3 (F := Ideal) tb) hb) (iota .tc S8192x80 32 [1] hi)) xb
          (broadcast S8192x80 (FloatOps.ofBits (F := Ideal) .f32 0x00000000#32)))
        0x00000000#32 h hφ hacc (ix1 p)
      = pickOf (fun c => xb (ix2 p c)) (tb (ix2 p (0 : Fin 1))) := by
  refine (sum_cols _ h hφ hacc p).trans ?_
  unfold pickOf
  refine Finset.sum_congr rfl fun c _ => ?_
  rw [select_apply, broadcast_apply]
  show Scalar.select (IntOp.cmpi .eq (broadcastTo S8192x80 (k0_pay3 (F := Ideal) tb) hb (ix2 p c))
      (iota .tc S8192x80 32 [1] hi (ix2 p c))) (xb (ix2 p c)) (FloatOps.ofBits (F := Ideal) .f32 0x00000000#32) = _
  rw [broadcastTo_a1_ab_apply, pay3_eq, iota_single_apply, Ideal.ofBits_def, Ideal.ofBits_zero_f32]
  show (if IntOp.cmpi .eq (tb (ix2 p (0 : Fin 1))) (BitVec.ofNat 32 c.val) = 1#1 then xb (ix2 p c) else 0) = _
  by_cases hc : tb (ix2 p (0 : Fin 1)) = BitVec.ofNat 32 c.val
  · rw [if_pos (StableHlo.Predicate.cmpi_eq_iff.mpr hc), if_pos hc]
  · rw [if_neg (fun hh => hc (StableHlo.Predicate.cmpi_eq_iff.mp hh)), if_neg hc]

/-- A row's contribution from its "not ignored" bit `b` and its picked logit `m`. -/
theorem loss_word (row : Fin 80 → EReal) (w : BitVec 32) (b : BitVec 1) (m : EReal)
    (hb : b = IntOp.cmpi .ne w ignoreWord) (hm : m = pickOf row w) :
    Scalar.select b ((FloatOps.ofBits (F := Ideal) .f32 0x3F800000#32 - m) * (FloatOps.ofBits (F := Ideal) .f32 0x3F800000#32 - m))
        (FloatOps.ofBits (F := Ideal) .f32 0x00000000#32) = lossOf row w := by
  subst hb hm
  rw [ne_bit, Ideal.ofBits_def, Ideal.ofBits_def, Ideal.ofBits_zero_f32]
  unfold lossOf
  by_cases h : w = ignoreWord
  · rw [if_pos h, if_pos h, select_zero]
  · rw [if_neg h, if_neg h, select_one]

end Helpers

/-! ## The four stored values -/

/-- The resets store 0. -/
theorem pay1_apply (j : S1x1.Idx) : k0_pay1 (F := Ideal) j = 0 := by
  unfold k0_pay1
  rw [shapeCast_self]
  exact Ideal.ofBits_zero_f32
theorem pay2_apply (j : S1x1.Idx) : k0_pay2 (F := Ideal) j = 0 := by
  unfold k0_pay2
  rw [shapeCast_self]
  exact Ideal.ofBits_zero_f32

/-- The first accumulator's update: what it held plus the sum over the tile's 8192 rows of the row's contribution. -/
theorem pay5_apply (xb : Vec Ideal S8192x80 .f32) (tb : Vec Ideal S8192x1 .i32) (acc : Vec Ideal S1x1 .f32) (j : S1x1.Idx) :
    k0_pay5 (F := Ideal) xb tb acc j
      = acc j + ∑ p : Fin 8192, lossOf (fun c => xb (ix2 p c)) (tb (ix2 p (0 : Fin 1))) := by
  obtain ⟨u, i, rfl⟩ : ∃ (u : Fin 1) (i : Fin 1), j = ix2 u i := ⟨j 0, j 1, eq_ix2 j⟩
  unfold k0_pay5
  rw [shapeCast_self, addf_apply, shapeCast_a_1a_apply]
  refine congrArg (acc (ix2 u i) + ·) ?_
  refine (sum_rows _ _ _ _ i).trans ?_
  refine Finset.sum_congr rfl fun p _ => ?_
  rw [select_apply, mulf_apply, subf_apply, broadcast_apply, broadcast_apply]
  refine loss_word (fun c => xb (ix2 p c)) (tb (ix2 p (0 : Fin 1))) _ _ (pay4_apply tb p 0) ?_
  refine (shapeCast_a_a1_apply _ _ p 0).trans ?_
  exact pick_apply xb tb _ _ _ _ _ p

/-- The second accumulator's update: what it held plus the tile's count of rows not ignored. -/
theorem pay6_apply (tb : Vec Ideal S8192x1 .i32) (acc : Vec Ideal S1x1 .f32) (j : S1x1.Idx) :
    k0_pay6 (F := Ideal) tb acc j = acc j + ∑ p : Fin 8192, countOf (tb (ix2 p (0 : Fin 1))) := by
  obtain ⟨u, i, rfl⟩ : ∃ (u : Fin 1) (i : Fin 1), j = ix2 u i := ⟨j 0, j 1, eq_ix2 j⟩
  unfold k0_pay6
  rw [shapeCast_self, addf_apply, shapeCast_a_1a_apply]
  refine congrArg (acc (ix2 u i) + ·) ?_
  refine (sum_rows _ _ _ _ i).trans ?_
  refine Finset.sum_congr rfl fun p _ => ?_
  rw [sitofp_apply, extui_apply, pay4_apply]
  exact count_word _

end Cert.KernelIdeal.Tile

end
-- ==== Proof.KernelInduct.lean ====
/-
  The two accumulators point by point. After grid point n the first holds the sum of the contributions of tiles 0 … n
  and the second the count of rows not ignored in those tiles: point 0 stores 0 and adds tile 0; every later point adds
  its own tile to what the point before left. The last point (255) copies both, as just updated, into the two result
  blocks, which therefore hold the sums over all 256 tiles: the sum of all rows' contributions and the count of all rows
  not ignored, the rows taken tile by tile.
-/
import proofs.«406647_j39058432590486_1_alg».proof.Proof.KernelPieces
import proofs.«406647_j39058432590486_1_alg».proof.Proof.KernelBlocks
import proofs.«406647_j39058432590486_1_alg».proof.Proof.KernelTile

noncomputable section

namespace Cert.KernelIdeal.Running

open Cert.KernelIdeal Cert.KernelIdeal.Gen Idealize.ShloMosaic Idealize.ShloMosaic.TcCoe Idealize.SL.Sem
open Idealize.ShloMosaic.ValueIdx Cert.MaskedPick Cert.KernelIdeal.Blocks
open scoped BigOperators

variable (m : (ℓ : Loc nD τ sig) → Buf (Elt Ideal) ℓ)

/-- The logits and the targets as launched on core c. -/
abbrev logits (c : Dev nD) : FVec Ideal SX .f32 := m ((c : Thread nD τ).loc main_arg0)
abbrev targets (c : Dev nD) : IVec ST 32 := m ((c : Thread nD τ).loc main_arg1)

/-- The first accumulator's update at point t: what it held plus tile t's sum of contributions. -/
theorem sum_step (c : Dev nD) (t : Fin cfg0.N) (acc : Vec Ideal S1x1 .f32) :
    k0_pay5 (F := Ideal) (iblk m c 0 t) (iblk m c 1 t) acc = fun j => acc j + tileLoss (logits m c) (targets m c) t.val := by
  funext j
  refine (Cert.KernelIdeal.Tile.pay5_apply (iblk m c 0 t) (iblk m c 1 t) acc j).trans ?_
  congr 1
  have ht : t.val < 256 := (tileOf t).isLt
  unfold tileLoss
  rw [dif_pos ht]
  refine Finset.sum_congr rfl fun p _ => ?_
  unfold rowLoss
  rw [targets_block m c t p]
  have e : (fun k : Fin 80 => (iblk m c 0 t : Vec Ideal S8192x80 .f32) (ix2 p k))
      = fun k : Fin 80 => logits m c (ix2 (rowOf (tileOf t) p) k) := funext fun k => logits_block m c t p k
  rw [e]
  rfl

/-- The second accumulator's update at point t: what it held plus tile t's count. -/
theorem count_step (c : Dev nD) (t : Fin cfg0.N) (acc : Vec Ideal S1x1 .f32) :
    k0_pay6 (F := Ideal) (iblk m c 1 t) acc = fun j => acc j + tileCount (targets m c) t.val := by
  funext j
  refine (Cert.KernelIdeal.Tile.pay6_apply (iblk m c 1 t) acc j).trans ?_
  congr 1
  have ht : t.val < 256 := (tileOf t).isLt
  unfold tileCount
  rw [dif_pos ht]
  refine Finset.sum_congr rfl fun p _ => ?_
  unfold rowCount
  rw [targets_block m c t p]
  rfl

/-- After point n: the accumulators hold the sums over tiles 0 … n. -/
theorem carried (c : Dev nD) : ∀ (n : ℕ) (hn : n < cfg0.N),
    (outsAt0 m c n hn).2.2.1 = (fun _ => ∑ k ∈ Finset.range (n + 1), tileLoss (logits m c) (targets m c) k)
    ∧ (outsAt0 m c n hn).2.2.2 = (fun _ => ∑ k ∈ Finset.range (n + 1), tileCount (targets m c) k)
  | 0, hn => by
    rw [outsAt0_A m c ⟨0, hn⟩ rfl (by show ¬0 % 256 = 255; decide)]
    dsimp only
    rw [Cert.KernelIdeal.Pieces.firstSum, Cert.KernelIdeal.Pieces.firstCount, sum_step, count_step]
    refine ⟨funext fun j => ?_, funext fun j => ?_⟩
    · rw [Cert.KernelIdeal.Tile.pay1_apply, zero_add, Finset.sum_range_one]
    · rw [Cert.KernelIdeal.Tile.pay2_apply, zero_add, Finset.sum_range_one]
  | n + 1, hn => by
    have hN : cfg0.N = 256 := N_0
    have ih := carried c n (Nat.lt_of_succ_lt hn)
    have h0 : ¬(⟨n + 1, hn⟩ : Fin cfg0.N).val % 256 = 0 := by dsimp only; omega
    have step : ∀ (a b : Vec Ideal S1x1 .f32),
        a = (outsAt0 m c n (Nat.lt_of_succ_lt hn)).2.2.1 → b = (outsAt0 m c n (Nat.lt_of_succ_lt hn)).2.2.2 →
        k0_pay5 (F := Ideal) (iblk m c 0 ⟨n + 1, hn⟩) (iblk m c 1 ⟨n + 1, hn⟩) a
            = (fun _ => ∑ k ∈ Finset.range (n + 1 + 1), tileLoss (logits m c) (targets m c) k)
          ∧ k0_pay6 (F := Ideal) (iblk m c 1 ⟨n + 1, hn⟩) b
            = (fun _ => ∑ k ∈ Finset.range (n + 1 + 1), tileCount (targets m c) k) := by
      intro a b ha hb
      rw [sum_step, count_step, ha, hb, ih.1, ih.2]
      exact ⟨funext fun _ => (Finset.sum_range_succ _ _).symm, funext fun _ => (Finset.sum_range_succ _ _).symm⟩
    by_cases h1 : (⟨n + 1, hn⟩ : Fin cfg0.N).val % 256 = 255
    · rw [outsAt0_C m c ⟨n + 1, hn⟩ h0 h1]
      dsimp only
      rw [Cert.KernelIdeal.Pieces.lastSum, Cert.KernelIdeal.Pieces.lastCount]
      exact step _ _ rfl rfl
    · rw [outsAt0_B m c ⟨n + 1, hn⟩ h0 h1]
      dsimp only
      rw [Cert.KernelIdeal.Pieces.midSum, Cert.KernelIdeal.Pieces.midCount]
      exact step _ _ rfl rfl

/-- What a last point (one whose number is 255 modulo 256: the grid has only the one) copies out: the sum of all rows'
    contributions and the count of all rows not ignored. -/
theorem copied_out (c : Dev nD) (t : Fin cfg0.N) (hlast : t.val % 256 = 255) :
    (outsAt0 m c t.val t.isLt).1 = (fun _ => lossSum (logits m c) (targets m c))
    ∧ (outsAt0 m c t.val t.isLt).2.1 = (fun _ => validCount (targets m c)) := by
  have hN : cfg0.N = 256 := N_0
  have htl := t.isLt
  have ht : t.val = 255 := by omega
  have h0 : ¬t.val % 256 = 0 := by omega
  have ih := carried m c (t.val - 1) (Nat.lt_of_le_of_lt (Nat.sub_le _ _) t.isLt)
  rw [outsAt0_C m c t h0 hlast]
  dsimp only
  rw [Cert.KernelIdeal.Pieces.outSum, Cert.KernelIdeal.Pieces.outCount, sum_step, count_step, ih.1, ih.2,
    lossSum_eq_tiles, validCount_eq_tiles]
  refine ⟨funext fun j => ?_, funext fun j => ?_⟩
  · show ∑ k ∈ Finset.range (t.val - 1 + 1), tileLoss (logits m c) (targets m c) k + tileLoss (logits m c) (targets m c) t.val
      = ∑ k ∈ Finset.range 256, tileLoss (logits m c) (targets m c) k
    rw [ht]
    exact (Finset.sum_range_succ _ 255).symm
  · show ∑ k ∈ Finset.range (t.val - 1 + 1), tileCount (targets m c) k + tileCount (targets m c) t.val
      = ∑ k ∈ Finset.range 256, tileCount (targets m c) k
    rw [ht]
    exact (Finset.sum_range_succ _ 255).symm

end Cert.KernelIdeal.Running

end
-- ==== Proof.KernelValue.lean ====
/-
  The kernel's run ends with the loss in its result buffer.

  The two result blocks are written back once, at the last grid point, and each block is its whole one-entry array: so
  the two result arrays end holding what that point copied out, the sum of all rows' contributions and the count of all
  rows not ignored. The host then reshapes each to a scalar (one entry either way) and divides the first by the second:
  the loss. The logits array is an input the kernel's pipeline only reads; the targets vector is read by the host's
  reshape alone and written by nothing.
-/
import proofs.«406647_j39058432590486_1_alg».proof.Proof.KernelInduct

noncomputable section

namespace Cert.KernelIdeal.LossValue

open Cert.KernelIdeal Cert.KernelIdeal.Gen Idealize.ShloMosaic Idealize.ShloMosaic.TcCoe Idealize.SL.Sem
open Idealize.ShloMosaic.Pipeline (Dat)
open Idealize.ShloMosaic.ValueIdx Cert.MaskedPick Cert.KernelIdeal.Running

variable (m : (ℓ : Loc nD τ sig) → Buf (Elt Ideal) ℓ) (ρ : Dev nD → PrngReg)

/-- The last grid point. -/
def lastPoint : Fin cfg0.N := ⟨255, by rw [show cfg0.N = 256 from N_0]; decide⟩

/-- A point that writes a result block back is a last point. -/
theorem last_of_flush2 (t : Fin cfg0.N) (hf : (cfg0.win 2).flush t = true) : t.val % 256 = 255 := (flush0_2 t).mp hf
theorem last_of_flush3 (t : Fin cfg0.N) (hf : (cfg0.win 3).flush t = true) : t.val % 256 = 255 := (flush0_3 t).mp hf

/-- What the one write-back of the first result block writes: the one-entry array at the sum of contributions. -/
theorem flushed_sum (c : Dev nD) (t : Fin cfg0.N) (hf : (cfg0.win 2).flush t = true) :
    (dats m 0 c).flushed 2 t
      = ((cfg0.win 2).blk t).view.read (Elt Ideal) (fun _ => lossSum (logits m c) (targets m c)) := by
  show (cfg0.win 2).cut (grid0.coords t) ((dats m 0 c).after 2 t) = _
  rw [after0_2, (copied_out m c t (last_of_flush2 t hf)).1]
  generalize lossSum (logits m c) (targets m c) = s
  refine funext fun y => ?_
  rw [View.read_apply]
  exact (cast_eq _ _).symm

/-- Likewise the second result block: the one-entry array at the count. -/
theorem flushed_count (c : Dev nD) (t : Fin cfg0.N) (hf : (cfg0.win 3).flush t = true) :
    (dats m 0 c).flushed 3 t
      = ((cfg0.win 3).blk t).view.read (Elt Ideal) (fun _ => validCount (targets m c)) := by
  show (cfg0.win 3).cut (grid0.coords t) ((dats m 0 c).after 3 t) = _
  rw [after0_3, (copied_out m c t (last_of_flush3 t hf)).2]
  generalize validCount (targets m c) = s
  refine funext fun y => ?_
  rw [View.read_apply]
  exact (cast_eq _ _).symm

/-- The last point's block of each result array is the whole array. -/
theorem covers2 (i : S1x1.Idx) : i ∈ ((cfg0.win 2).blk lastPoint).view.set := by
  show i ∈ ((View.whole main_v1_0).slice (win0_2.rect lastPoint)).set
  rw [View.set_slice_whole, Rect.mem_set_unit]
  intro a
  have h0 : (i 0 : Nat) < 1 := (i 0).isLt
  have h1 : (i 1 : Nat) < 1 := (i 1).isLt
  match a with
  | ⟨0, _⟩ => show win0_2.index lastPoint 0 * win0_2.size 0 ≤ (i 0 : Nat) ∧ (i 0 : Nat) < win0_2.index lastPoint 0 * win0_2.size 0 + win0_2.xsize (grid0.coords lastPoint) 0
              rw [show win0_2.index lastPoint 0 * win0_2.size 0 = 0 from by decide +kernel, show win0_2.xsize (grid0.coords lastPoint) 0 = 1 from by decide +kernel]; omega
  | ⟨1, _⟩ => show win0_2.index lastPoint 1 * win0_2.size 1 ≤ (i 1 : Nat) ∧ (i 1 : Nat) < win0_2.index lastPoint 1 * win0_2.size 1 + win0_2.xsize (grid0.coords lastPoint) 1
              rw [show win0_2.index lastPoint 1 * win0_2.size 1 = 0 from by decide +kernel, show win0_2.xsize (grid0.coords lastPoint) 1 = 1 from by decide +kernel]; omega

theorem covers3 (i : S1x1.Idx) : i ∈ ((cfg0.win 3).blk lastPoint).view.set := by
  show i ∈ ((View.whole main_v1_1).slice (win0_3.rect lastPoint)).set
  rw [View.set_slice_whole, Rect.mem_set_unit]
  intro a
  have h0 : (i 0 : Nat) < 1 := (i 0).isLt
  have h1 : (i 1 : Nat) < 1 := (i 1).isLt
  match a with
  | ⟨0, _⟩ => show win0_3.index lastPoint 0 * win0_3.size 0 ≤ (i 0 : Nat) ∧ (i 0 : Nat) < win0_3.index lastPoint 0 * win0_3.size 0 + win0_3.xsize (grid0.coords lastPoint) 0
              rw [show win0_3.index lastPoint 0 * win0_3.size 0 = 0 from by decide +kernel, show win0_3.xsize (grid0.coords lastPoint) 0 = 1 from by decide +kernel]; omega
  | ⟨1, _⟩ => show win0_3.index lastPoint 1 * win0_3.size 1 ≤ (i 1 : Nat) ∧ (i 1 : Nat) < win0_3.index lastPoint 1 * win0_3.size 1 + win0_3.xsize (grid0.coords lastPoint) 1
              rw [show win0_3.index lastPoint 1 * win0_3.size 1 = 0 from by decide +kernel, show win0_3.xsize (grid0.coords lastPoint) 1 = 1 from by decide +kernel]; omega

/-- So the first result array ends at the sum of contributions, the second at the count. -/
theorem final_sum (c : Dev nD) : (dats m 0 c).arrAt 2 cfg0.N = (fun _ => lossSum (logits m c) (targets m c)) :=
  (dats m 0 c).arrAt_eq_of_cover 2 (fun _ => lossSum (logits m c) (targets m c)) (flushed_sum m c) fun i =>
    ⟨lastPoint, (flush0_2 lastPoint).mpr rfl, covers2 i⟩

theorem final_count (c : Dev nD) : (dats m 0 c).arrAt 3 cfg0.N = (fun _ => validCount (targets m c)) :=
  (dats m 0 c).arrAt_eq_of_cover 3 (fun _ => validCount (targets m c)) (flushed_count m c) fun i =>
    ⟨lastPoint, (flush0_3 lastPoint).mpr rfl, covers3 i⟩

/-- The host's lines after the region: each result array reshaped to a scalar, the first divided by the second. -/
theorem tail_value (c : Dev nD) :
    Pipeline.afterTail₀ cfgs (dats m) 0 (V0 m) [hostOps1] c main_v4
      = fun _ => meanLoss (logits m c) (targets m c) := by
  unfold Pipeline.afterTail₀
  show StableHlo.after hostOps1 _ (Proc.devRef .tc main_v4) = _
  after_results
  have e2 : Pipeline.withArrays (cfgs 0).spec c (V0 m c) (fun w => (dats m 0 c).arrAt w (cfgs 0).N) (Proc.devRef .tc main_v1_0)
      = (fun _ => lossSum (logits m c) (targets m c)) :=
    (Pipeline.withArrays_arr spec0 launch0.win.arr_inj c _ _ 2).trans (final_sum m c)
  have e3 : Pipeline.withArrays (cfgs 0).spec c (V0 m c) (fun w => (dats m 0 c).arrAt w (cfgs 0).N) (Proc.devRef .tc main_v1_1)
      = (fun _ => validCount (targets m c)) :=
    (Pipeline.withArrays_arr spec0 launch0.win.arr_inj c _ _ 3).trans (final_count m c)
  rw [e2, e3]
  unfold meanLoss
  generalize lossSum (logits m c) (targets m c) = s
  generalize validCount (targets m c) = n
  rfl

/-- Every weakly fair execution of the kernel's program terminates with the loss of the two arguments in the result
    buffer, and the arguments unchanged. -/
theorem run :
    θ_run (defs (F := Ideal)) (onTc (τ := τ) (main (F := Ideal))) ⟨m, fun _ => 0, ρ⟩ fun r => ∀ c : Dev nD,
      r.2.mem ((c.tc : Thread nD τ).loc main_v4)
        = (fun _ => meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.LossValue

end
-- ==== Proof.lean ====
/-
  The kernel and its reference compute one loss: over the rows whose target is not the ignore label -1, the mean of
  (1 - the logit the row's target picks) squared, the logits an array of 2097152 rows and 80 columns, one target a row.

  The kernel picks by a one-hot selection (the sum over the 80 columns of the logit where the column number equals the
  target, 0 elsewhere), sums the masked squares and the counts 8192 rows at a time into two accumulators over 256 grid
  points, and divides once at the end. The reference picks by an index (the target, 0 where ignored), fills what an
  out-of-range index would read, sums over all rows, counts in integers and divides. Where every target is -1 or a
  column number (the precondition's second conjunct) the two picks agree on every row that is not ignored: the one-hot
  sum has the one term of the target's column, and the index is in range and reads that column. The two sums differ
  only in how the rows are grouped, which addition of extended reals does not see, and the two counts are the number of
  rows not ignored. So both end at the specification's loss (Proof/Spec.lean).

  The kernel's frames are the generated ones; the reference's frame is its run with the result dropped; the idealization
  rewrote nothing.
-/
import proofs.«406647_j39058432590486_1_alg».proof.Defs
import proofs.«406647_j39058432590486_1_alg».proof.Proof.Gen.Kernel
import proofs.«406647_j39058432590486_1_alg».proof.Proof.Gen.Kernel.Skeleton
import proofs.«406647_j39058432590486_1_alg».proof.Proof.Gen.Kernel.Launch
import proofs.«406647_j39058432590486_1_alg».proof.Proof.Gen.Kernel.Points
import proofs.«406647_j39058432590486_1_alg».proof.Proof.Gen.Kernel.Frame
import proofs.«406647_j39058432590486_1_alg».proof.Proof.Gen.KernelIdeal
import proofs.«406647_j39058432590486_1_alg».proof.Proof.Gen.KernelIdeal.Skeleton
import proofs.«406647_j39058432590486_1_alg».proof.Proof.Gen.KernelIdeal.Launch
import proofs.«406647_j39058432590486_1_alg».proof.Proof.Gen.KernelIdeal.Points
import proofs.«406647_j39058432590486_1_alg».proof.Proof.Gen.KernelIdeal.Frame
import proofs.«406647_j39058432590486_1_alg».proof.Proof.Gen.ReferenceIdeal
import proofs.«406647_j39058432590486_1_alg».proof.Proof.Gen.Pre_finite_inputs
import proofs.«406647_j39058432590486_1_alg».proof.Proof.RefStages
import proofs.«406647_j39058432590486_1_alg».proof.Proof.RefValue
import proofs.«406647_j39058432590486_1_alg».proof.Proof.PreRange
import proofs.«406647_j39058432590486_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- Both runs end at the loss of the arguments; the arguments agree; under the precondition every target is -1 or a
    column number, which is what makes the reference's indexed pick the kernel's one-hot pick. -/
theorem algebraic : Cert.algebraic_KernelIdeal_ReferenceIdeal := by
  intro m ρ m' ρ' hpre hagree
  refine ⟨fun c _ => Cert.MaskedPick.meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.LossValue.run m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2]
  exact Cert.ReferenceIdeal.LossValue.val_eq_meanLoss _ _ (Cert.PreRange.range_of_pre _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
